-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x128x128 : Shape := ⟨3, ![32, 128, 128]⟩
abbrev S32x128x64 : Shape := ⟨3, ![32, 128, 64]⟩
abbrev S32x128x64x64 : Shape := ⟨4, ![32, 128, 64, 64]⟩
abbrev S128x128 : Shape := ⟨2, ![128, 128]⟩
abbrev S64x128 : Shape := ⟨2, ![64, 128]⟩
abbrev S128 : Shape := ⟨1, ![128]⟩
abbrev S_ : Shape := ⟨0, ![]⟩

class Facts : Prop where
  bcast_S_S32x128x128 : S_.BroadcastsInDim S32x128x128 (![] : Fin 0 → Fin S32x128x128.rank)
  reducesTo_S32x128x128_S_d0_1_2 : S32x128x128.ReducesTo [0, 1, 2] S_
  h_S_ : 0 < S_.numel
  bcast_S_S32x128x64 : S_.BroadcastsInDim S32x128x64 (![] : Fin 0 → Fin S32x128x64.rank)
  reducesTo_S32x128x64_S_d0_1_2 : S32x128x64.ReducesTo [0, 1, 2] S_
  bcast_S_S32x128x64x64 : S_.BroadcastsInDim S32x128x64x64 (![] : Fin 0 → Fin S32x128x64x64.rank)
  reducesTo_S32x128x64x64_S_d0_1_2_3 : S32x128x64x64.ReducesTo [0, 1, 2, 3] S_
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg2 : IVec S32x128x64 32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_c_20 : IVec S_ 32 := constantI S_ 32 0#32
  let main_v54 : IVec S32x128x64 32 := broadcastInDim S32x128x64 ![] bcast_S_S32x128x64 main_c_20
  let main_v55 : IVec S32x128x64 1 := cmpi .sge main_arg2 main_v54
  let main_c_21 : IVec S_ 32 := constantI S_ 32 128#32
  let main_v56 : IVec S32x128x64 32 := broadcastInDim S32x128x64 ![] bcast_S_S32x128x64 main_c_21
  let main_v57 : IVec S32x128x64 1 := cmpi .slt main_arg2 main_v56
  let main_v58 : IVec S32x128x64 1 := andi main_v55 main_v57
  let main_c_22 : IVec S_ 1 := constantI S_ 1 1#1
  let main_v59 : IVec S_ 1 := (fun x v => Host.reduce IntOp.andi x v reducesTo_S32x128x64_S_d0_1_2 h_S_) main_v58 main_c_22
  let main_v60 : IVec S_ 1 := andi main_v53 main_v59
  main_v60

def fn_part2 {F : FTy → Type} [FloatOps F] (main_arg2 : IVec S32x128x64 32) (main_arg8 : FVec F S128x128 .f32) (main_arg9 : FVec F S128 .f32) (main_arg10 : FVec F S128x128 .f32) (main_arg11 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg2 main_v48 main_v49 main_v50

def fn_part1 {F : FTy → Type} [FloatOps F] (main_arg2 : IVec S32x128x64 32) (main_arg5 : FVec F S128x128 .f32) (main_arg6 : FVec F S64x128 .f32) (main_arg7 : FVec F S128 .f32) (main_arg8 : FVec F S128x128 .f32) (main_arg9 : FVec F S128 .f32) (main_arg10 : FVec F S128x128 .f32) (main_arg11 : FVec F S128 .f32) (main_v13 : IVec S_ 1) (main_v16 : IVec S32x128x64x64 1) : IVec S_ 1 :=
  let main_c_5 : IVec S_ 1 := constantI S_ 1 1#1
  let main_v17 : IVec S_ 1 := (fun x v => Host.reduce IntOp.andi x v reducesTo_S32x128x64x64_S_d0_1_2_3 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg2 main_arg8 main_arg9 main_arg10 main_arg11 main_v33

def fn {F : FTy → Type} [FloatOps F] (main_arg0 : FVec F S32x128x128 .f32) (main_arg1 : FVec F S32x128x64 .f32) (main_arg2 : IVec S32x128x64 32) (main_arg3 : FVec F S32x128x64 .f32) (main_arg4 : FVec F S32x128x64x64 .f32) (main_arg5 : FVec F S128x128 .f32) (main_arg6 : FVec F S64x128 .f32) (main_arg7 : FVec F S128 .f32) (main_arg8 : FVec F S128x128 .f32) (main_arg9 : FVec F S128 .f32) (main_arg10 : FVec F S128x128 .f32) (main_arg11 : FVec F S128 .f32) : IVec S_ 1 :=
  let main_v0 : FVec F S32x128x128 .f32 := Host.absf main_arg0
  let main_cst : FVec F S_ .f32 := constant S_ .f32 0x7F800000#32
  let main_v1 : FVec F S32x128x128 .f32 := broadcastInDim S32x128x128 ![] bcast_S_S32x128x128 main_cst
  let main_v2 : IVec S32x128x128 1 := cmpf .olt main_v0 main_v1
  let main_c : IVec S_ 1 := constantI S_ 1 1#1
  let main_v3 : IVec S_ 1 := (fun x v => Host.reduce IntOp.andi x v reducesTo_S32x128x128_S_d0_1_2 h_S_) main_v2 main_c
  let main_v4 : FVec F S32x128x64 .f32 := Host.absf main_arg1
  let main_cst_0 : FVec F S_ .f32 := constant S_ .f32 0x7F800000#32
  let main_v5 : FVec F S32x128x64 .f32 := broadcastInDim S32x128x64 ![] bcast_S_S32x128x64 main_cst_0
  let main_v6 : IVec S32x128x64 1 := cmpf .olt main_v4 main_v5
  let main_c_1 : IVec S_ 1 := constantI S_ 1 1#1
  let main_v7 : IVec S_ 1 := (fun x v => Host.reduce IntOp.andi x v reducesTo_S32x128x64_S_d0_1_2 h_S_) main_v6 main_c_1
  let main_v8 : IVec S_ 1 := andi main_v3 main_v7
  let main_v9 : FVec F S32x128x64 .f32 := Host.absf main_arg3
  let main_cst_2 : FVec F S_ .f32 := constant S_ .f32 0x7F800000#32
  let main_v10 : FVec F S32x128x64 .f32 := broadcastInDim S32x128x64 ![] bcast_S_S32x128x64 main_cst_2
  let main_v11 : IVec S32x128x64 1 := cmpf .olt main_v9 main_v10
  let main_c_3 : IVec S_ 1 := constantI S_ 1 1#1
  let main_v12 : IVec S_ 1 := (fun x v => Host.reduce IntOp.andi x v reducesTo_S32x128x64_S_d0_1_2 h_S_) main_v11 main_c_3
  let main_v13 : IVec S_ 1 := andi main_v8 main_v12
  let main_v14 : FVec F S32x128x64x64 .f32 := Host.absf main_arg4
  let main_cst_4 : FVec F S_ .f32 := constant S_ .f32 0x7F800000#32
  let main_v15 : FVec F S32x128x64x64 .f32 := broadcastInDim S32x128x64x64 ![] bcast_S_S32x128x64x64 main_cst_4
  let main_v16 : IVec S32x128x64x64 1 := cmpf .olt main_v14 main_v15
  fn_part1 (F := F) main_arg2 main_arg5 main_arg6 main_arg7 main_arg8 main_arg9 main_arg10 main_arg11 main_v13 main_v16
-- ==== Kernel.lean ====
abbrev S32x128x128 : Shape := ⟨3, ![32, 128, 128]⟩
abbrev S32x128x64 : Shape := ⟨3, ![32, 128, 64]⟩
abbrev S32x128x64x64 : Shape := ⟨4, ![32, 128, 64, 64]⟩
abbrev S128x128 : Shape := ⟨2, ![128, 128]⟩
abbrev S64x128 : Shape := ⟨2, ![64, 128]⟩
abbrev S128 : Shape := ⟨1, ![128]⟩
abbrev S2x128x128 : Shape := ⟨3, ![2, 128, 128]⟩
abbrev S2x128x64 : Shape := ⟨3, ![2, 128, 64]⟩
abbrev S2x128x64x64 : Shape := ⟨4, ![2, 128, 64, 64]⟩
abbrev S256x128 : Shape := ⟨2, ![256, 128]⟩
abbrev S2x1x1 : Shape := ⟨3, ![2, 1, 1]⟩
abbrev S2x32x64 : Shape := ⟨3, ![2, 32, 64]⟩
abbrev S2x32x64x64 : Shape := ⟨4, ![2, 32, 64, 64]⟩
abbrev S4096x64 : Shape := ⟨2, ![4096, 64]⟩
abbrev S4096x128 : Shape := ⟨2, ![4096, 128]⟩
abbrev S1x128 : Shape := ⟨2, ![1, 128]⟩
abbrev S2x32x64x128 : Shape := ⟨4, ![2, 32, 64, 128]⟩
abbrev S2x32x64x1 : Shape := ⟨4, ![2, 32, 64, 1]⟩
abbrev S2x32x64x256 : Shape := ⟨4, ![2, 32, 64, 256]⟩
abbrev S4096x256 : Shape := ⟨2, ![4096, 256]⟩
abbrev S2x32x128 : Shape := ⟨3, ![2, 32, 128]⟩

abbrev nBuf : Space → Nat
  | .hbm => 13
  | .vmem => 19
  | .smem => 0
  | _ => 0

abbrev bufTy : (tb : Table) → Fin (tcTables nBuf tb) → BufTy
  | .hbm, ⟨0, _⟩ => ⟨S32x128x128, .f32⟩
  | .hbm, ⟨1, _⟩ => ⟨S32x128x64, .f32⟩
  | .hbm, ⟨2, _⟩ => ⟨S32x128x64, .i32⟩
  | .hbm, ⟨3, _⟩ => ⟨S32x128x64, .f32⟩
  | .hbm, ⟨4, _⟩ => ⟨S32x128x64x64, .f32⟩
  | .hbm, ⟨5, _⟩ => ⟨S128x128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S32x128x128, .f32⟩
  | .local _ .vmem, ⟨0, _⟩ => ⟨S2x128x128, .f32⟩
  | .local _ .vmem, ⟨1, _⟩ => ⟨S2x128x128, .f32⟩
  | .local _ .vmem, ⟨2, _⟩ => ⟨S2x128x64, .f32⟩
  | .local _ .vmem, ⟨3, _⟩ => ⟨S2x128x64, .f32⟩
  | .local _ .vmem, ⟨4, _⟩ => ⟨S2x128x64, .i32⟩
  | .local _ .vmem, ⟨5, _⟩ => ⟨S2x128x64, .i32⟩
  | .local _ .vmem, ⟨6, _⟩ => ⟨S2x128x64, .f32⟩
  | .local _ .vmem, ⟨7, _⟩ => ⟨S2x128x64, .f32⟩
  | .local _ .vmem, ⟨8, _⟩ => ⟨S2x128x64x64, .f32⟩
  | .local _ .vmem, ⟨9, _⟩ => ⟨S2x128x64x64, .f32⟩
  | .local _ .vmem, ⟨10, _⟩ => ⟨S128x128, .f32⟩
  | .local _ .vmem, ⟨11, _⟩ => ⟨S64x128, .f32⟩
  | .local _ .vmem, ⟨12, _⟩ => ⟨S128, .f32⟩
  | .local _ .vmem, ⟨13, _⟩ => ⟨S128x128, .f32⟩
  | .local _ .vmem, ⟨14, _⟩ => ⟨S128, .f32⟩
  | .local _ .vmem, ⟨15, _⟩ => ⟨S128x128, .f32⟩
  | .local _ .vmem, ⟨16, _⟩ => ⟨S128, .f32⟩
  | .local _ .vmem, ⟨17, _⟩ => ⟨S2x128x128, .f32⟩
  | .local _ .vmem, ⟨18, _⟩ => ⟨S2x128x128, .f32⟩
  | _, _ => ⟨S32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S2x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  inb_S2x128x128_S2x128x128_0_0_0 : ∀ a, (![0, 0, 0] : Fin 3 → Nat) a + S2x128x128.size a ≤ S2x128x128.size a
  h_S2x128x128 : 0 < S2x128x128.numel
  shapeCasts_S2x128x128_S256x128 : S2x128x128.ShapeCasts S256x128
  iota_S2x1x1_d0_w32 : S2x1x1.Iotas .tc 32 [0]
  inb_S2x128x64_S2x32x64_0_0_0 : ∀ a, (![0, 0, 0] : Fin 3 → Nat) a + S2x32x64.size a ≤ S2x128x64.size a
  h_S2x32x64 : 0 < S2x32x64.numel
  inb_S2x128x64x64_S2x32x64x64_0_0_0_0 : ∀ a, (![0, 0, 0, 0] : Fin 4 → Nat) a + S2x32x64x64.size a ≤ S2x128x64x64.size a
  h_S2x32x64x64 : 0 < S2x32x64x64.numel
  shapeCasts_S2x32x64x64_S4096x64 : S2x32x64x64.ShapeCasts S4096x64
  shapeCasts_S128_S1x128 : S128.ShapeCasts S1x128
  broadcasts_S1x128_S4096x128 : S1x128.Broadcasts S4096x128
  shapeCasts_S4096x128_S2x32x64x128 : S4096x128.ShapeCasts S2x32x64x128
  natLt_1_32 : 1 < 32
  shapeCasts_S2x32x64_S2x32x64x1 : S2x32x64.ShapeCasts S2x32x64x1
  broadcasts_S2x32x64x1_S2x32x64x128 : S2x32x64x1.Broadcasts S2x32x64x128
  iota_S2x32x64x256_d3_w32 : S2x32x64x256.Iotas .tc 32 [3]
  broadcasts_S2x1x1_S2x32x64 : S2x1x1.Broadcasts S2x32x64
  broadcasts_S2x32x64x1_S2x32x64x256 : S2x32x64x1.Broadcasts S2x32x64x256
  shapeCasts_S2x32x64x256_S4096x256 : S2x32x64x256.ShapeCasts S4096x256
  reduces_S2x32x64x128_S2x32x128 : S2x32x64x128.Reduces [2] S2x32x128
  shapeCasts_S2x32x128_S64x128 : S2x32x128.ShapeCasts S64x128
  broadcasts_S1x128_S64x128 : S1x128.Broadcasts S64x128
  shapeCasts_S64x128_S2x32x128 : S64x128.ShapeCasts S2x32x128
  inb_S2x128x128_S2x32x128_0_0_0 : ∀ a, (![0, 0, 0] : Fin 3 → Nat) a + S2x32x128.size a ≤ S2x128x128.size a
  h_S2x32x128 : 0 < S2x32x128.numel
  inb_S2x128x64_S2x32x64_0_32_0 : ∀ a, (![0, 32, 0] : Fin 3 → Nat) a + S2x32x64.size a ≤ S2x128x64.size a
  inb_S2x128x64x64_S2x32x64x64_0_32_0_0 : ∀ a, (![0, 32, 0, 0] : Fin 4 → Nat) a + S2x32x64x64.size a ≤ S2x128x64x64.size a
  inb_S2x128x128_S2x32x128_0_32_0 : ∀ a, (![0, 32, 0] : Fin 3 → Nat) a + S2x32x128.size a ≤ S2x128x128.size a
  inb_S2x128x64_S2x32x64_0_64_0 : ∀ a, (![0, 64, 0] : Fin 3 → Nat) a + S2x32x64.size a ≤ S2x128x64.size a
  inb_S2x128x64x64_S2x32x64x64_0_64_0_0 : ∀ a, (![0, 64, 0, 0] : Fin 4 → Nat) a + S2x32x64x64.size a ≤ S2x128x64x64.size a
  inb_S2x128x128_S2x32x128_0_64_0 : ∀ a, (![0, 64, 0] : Fin 3 → Nat) a + S2x32x128.size a ≤ S2x128x128.size a
  inb_S2x128x64_S2x32x64_0_96_0 : ∀ a, (![0, 96, 0] : Fin 3 → Nat) a + S2x32x64.size a ≤ S2x128x64.size a
  inb_S2x128x64x64_S2x32x64x64_0_96_0_0 : ∀ a, (![0, 96, 0, 0] : Fin 4 → Nat) a + S2x32x64x64.size a ≤ S2x128x64x64.size a
  inb_S2x128x128_S2x32x128_0_96_0 : ∀ a, (![0, 96, 0] : Fin 3 → Nat) a + S2x32x128.size a ≤ S2x128x128.size a
  dot_S256x128_S128x128_S256x128_1_0_0_1_n_n_wf : DotDims.WF S256x128 S128x128 S256x128 [1] [0] [0] [1] [] []
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S4096x256_S256x128_S4096x128_1_0_0_1_n_n_wf : DotDims.WF S4096x256 S256x128 S4096x128 [1] [0] [0] [1] [] []
  dot_S64x128_S128x128_S64x128_1_0_0_1_n_n_wf : DotDims.WF S64x128 S128x128 S64x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x128.size a ≤ S32x128x128.size a
  hwx0_0 : ∀ i : grid0.Coords, EltTy.bits .f32 = 32 ∨ (Rect.block (s := S32x128x128) S2x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x64.size a ≤ S32x128x64.size a
  hwx0_1 : ∀ i : grid0.Coords, EltTy.bits .f32 = 32 ∨ (Rect.block (s := S32x128x64) S2x128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x64.size a ≤ S32x128x64.size a
  hwx0_2 : ∀ i : grid0.Coords, EltTy.bits .i32 = 32 ∨ (Rect.block (s := S32x128x64) S2x128x64.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x128x64.size a ≤ S32x128x64.size a
  hwx0_3 : ∀ i : grid0.Coords, EltTy.bits .f32 = 32 ∨ (Rect.block (s := S32x128x64) S2x128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x128x64x64.size a ≤ S32x128x64x64.size a
  hwx0_4 : ∀ i : grid0.Coords, EltTy.bits .f32 = 32 ∨ (Rect.block (s := S32x128x64x64) S2x128x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x128.size a ≤ S64x128.size a
  hwx0_6 : ∀ i : grid0.Coords, EltTy.bits .f32 = 32 ∨ (Rect.block (s := S64x128) S64x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S128x128.size a ≤ S128x128.size a
  hwx0_10 : ∀ i : grid0.Coords, EltTy.bits .f32 = 32 ∨ (Rect.block (s := S128x128) S128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128.size a ≤ S128.size a
  hwx0_11 : ∀ i : grid0.Coords, EltTy.bits .f32 = 32 ∨ (Rect.block (s := S128) S128.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2x128x128.size a ≤ S32x128x128.size a
  hwx0_12 : ∀ i : grid0.Coords, EltTy.bits .f32 = 32 ∨ (Rect.block (s := S32x128x128) S2x128x128.size (cc0_transform_12 i) (hinb0_12 i)).WholeWords (EltTy.packing .f32)

variable [Facts₀]

def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf
def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf

abbrev win0_0 : Pipeline.Window sig grid0 :=
  Pipeline.Window.ofSpec (Memref.whole main_arg0) S2x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2x128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S2x128x64x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0) S2x128x128.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S32x128x128 : Shape := ⟨3, ![32, 128, 128]⟩
abbrev S32x128x64 : Shape := ⟨3, ![32, 128, 64]⟩
abbrev S32x128x64x64 : Shape := ⟨4, ![32, 128, 64, 64]⟩
abbrev S128x128 : Shape := ⟨2, ![128, 128]⟩
abbrev S64x128 : Shape := ⟨2, ![64, 128]⟩
abbrev S128 : Shape := ⟨1, ![128]⟩
abbrev S32x128x64x128 : Shape := ⟨4, ![32, 128, 64, 128]⟩
abbrev S1x1x1x128 : Shape := ⟨4, ![1, 1, 1, 128]⟩
abbrev S_ : Shape := ⟨0, ![]⟩
abbrev S32x128x64x1 : Shape := ⟨4, ![32, 128, 64, 1]⟩
abbrev S32x8192 : Shape := ⟨2, ![32, 8192]⟩
abbrev S32x8192x1 : Shape := ⟨3, ![32, 8192, 1]⟩
abbrev S1 : Shape := ⟨1, ![1]⟩
abbrev S1x1x1 : Shape := ⟨3, ![1, 1, 1]⟩
abbrev S32x8192x128 : Shape := ⟨3, ![32, 8192, 128]⟩
abbrev S1x1x128 : Shape := ⟨3, ![1, 1, 128]⟩

abbrev nBuf : Space → Nat
  | .hbm => 111
  | .vmem => 0
  | .smem => 0
  | _ => 0

abbrev bufTy : (tb : Table) → Fin (tcTables nBuf tb) → BufTy
  | .hbm, ⟨0, _⟩ => ⟨S32x128x128, .f32⟩
  | .hbm, ⟨1, _⟩ => ⟨S32x128x64, .f32⟩
  | .hbm, ⟨2, _⟩ => ⟨S32x128x64, .i32⟩
  | .hbm, ⟨3, _⟩ => ⟨S32x128x64, .f32⟩
  | .hbm, ⟨4, _⟩ => ⟨S32x128x64x64, .f32⟩
  | .hbm, ⟨5, _⟩ => ⟨S128x128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S32x128x64x128, .f32⟩
  | .hbm, ⟨13, _⟩ => ⟨S1x1x1x128, .f32⟩
  | .hbm, ⟨14, _⟩ => ⟨S32x128x64x128, .f32⟩
  | .hbm, ⟨15, _⟩ => ⟨S32x128x64x128, .f32⟩
  | .hbm, ⟨16, _⟩ => ⟨S_, .f32⟩
  | .hbm, ⟨17, _⟩ => ⟨S32x128x64x128, .f32⟩
  | .hbm, ⟨18, _⟩ => ⟨S32x128x64x128, .f32⟩
  | .hbm, ⟨19, _⟩ => ⟨S32x128x64x128, .f32⟩
  | .hbm, ⟨20, _⟩ => ⟨S32x128x64x128, .f32⟩
  | .hbm, ⟨21, _⟩ => ⟨S32x128x64x128, .i1⟩
  | .hbm, ⟨22, _⟩ => ⟨S32x128x64x128, .f32⟩
  | .hbm, ⟨23, _⟩ => ⟨S32x128x64x128, .f32⟩
  | .hbm, ⟨24, _⟩ => ⟨S32x128x64x128, .f32⟩
  | .hbm, ⟨25, _⟩ => ⟨S32x128x64x128, .f32⟩
  | .hbm, ⟨26, _⟩ => ⟨S32x128x64x128, .f32⟩
  | .hbm, ⟨27, _⟩ => ⟨S32x128x64x128, .f32⟩
  | .hbm, ⟨28, _⟩ => ⟨S32x128x64x128, .f32⟩
  | .hbm, ⟨29, _⟩ => ⟨S32x128x64x128, .f32⟩
  | .hbm, ⟨30, _⟩ => ⟨S_, .f32⟩
  | .hbm, ⟨31, _⟩ => ⟨S32x128x64x128, .f32⟩
  | .hbm, ⟨32, _⟩ => ⟨S32x128x64x128, .f32⟩
  | .hbm, ⟨33, _⟩ => ⟨S32x128x64x128, .f32⟩
  | .hbm, ⟨34, _⟩ => ⟨S1x1x1x128, .f32⟩
  | .hbm, ⟨35, _⟩ => ⟨S32x128x64x128, .f32⟩
  | .hbm, ⟨36, _⟩ => ⟨S32x128x64x128, .f32⟩
  | .hbm, ⟨37, _⟩ => ⟨S_, .f32⟩
  | .hbm, ⟨38, _⟩ => ⟨S32x128x64, .f32⟩
  | .hbm, ⟨39, _⟩ => ⟨S32x128x64, .f32⟩
  | .hbm, ⟨40, _⟩ => ⟨S_, .f32⟩
  | .hbm, ⟨41, _⟩ => ⟨S32x128x64, .f32⟩
  | .hbm, ⟨42, _⟩ => ⟨S32x128x64, .f32⟩
  | .hbm, ⟨43, _⟩ => ⟨S32x128x64, .f32⟩
  | .hbm, ⟨44, _⟩ => ⟨S_, .f32⟩
  | .hbm, ⟨45, _⟩ => ⟨S32x128x64, .f32⟩
  | .hbm, ⟨46, _⟩ => ⟨S32x128x64, .f32⟩
  | .hbm, ⟨47, _⟩ => ⟨S_, .f32⟩
  | .hbm, ⟨48, _⟩ => ⟨S32x128x64, .f32⟩
  | .hbm, ⟨49, _⟩ => ⟨S32x128x64, .f32⟩
  | .hbm, ⟨50, _⟩ => ⟨S_, .f32⟩
  | .hbm, ⟨51, _⟩ => ⟨S32x128x64, .f32⟩
  | .hbm, ⟨52, _⟩ => ⟨S32x128x64, .i1⟩
  | .hbm, ⟨53, _⟩ => ⟨S32x128x64, .f32⟩
  | .hbm, ⟨54, _⟩ => ⟨S32x128x64, .f32⟩
  | .hbm, ⟨55, _⟩ => ⟨S32x128x64x1, .f32⟩
  | .hbm, ⟨56, _⟩ => ⟨S32x128x64x128, .f32⟩
  | .hbm, ⟨57, _⟩ => ⟨S32x128x64x128, .f32⟩
  | .hbm, ⟨58, _⟩ => ⟨S32x128x128, .f32⟩
  | .hbm, ⟨59, _⟩ => ⟨S32x8192, .i32⟩
  | .hbm, ⟨60, _⟩ => ⟨S32x8192x1, .i32⟩
  | .hbm, ⟨61, _⟩ => ⟨S_, .i32⟩
  | .hbm, ⟨62, _⟩ => ⟨S32x8192x1, .i32⟩
  | .hbm, ⟨63, _⟩ => ⟨S32x8192x1, .i1⟩
  | .hbm, ⟨64, _⟩ => ⟨S_, .i32⟩
  | .hbm, ⟨65, _⟩ => ⟨S32x8192x1, .i32⟩
  | .hbm, ⟨66, _⟩ => ⟨S32x8192x1, .i32⟩
  | .hbm, ⟨67, _⟩ => ⟨S32x8192x1, .i32⟩
  | .hbm, ⟨68, _⟩ => ⟨S1, .i32⟩
  | .hbm, ⟨69, _⟩ => ⟨S_, .i32⟩
  | .hbm, ⟨70, _⟩ => ⟨S32x8192x1, .i32⟩
  | .hbm, ⟨71, _⟩ => ⟨S32x8192x1, .i1⟩
  | .hbm, ⟨72, _⟩ => ⟨S1x1x1, .i32⟩
  | .hbm, ⟨73, _⟩ => ⟨S32x8192x1, .i32⟩
  | .hbm, ⟨74, _⟩ => ⟨S32x8192x1, .i1⟩
  | .hbm, ⟨75, _⟩ => ⟨S32x8192x1, .i1⟩
  | .hbm, ⟨76, _⟩ => ⟨S_, .i1⟩
  | .hbm, ⟨77, _⟩ => ⟨S32x8192, .i1⟩
  | .hbm, ⟨78, _⟩ => ⟨S32x8192x128, .f32⟩
  | .hbm, ⟨79, _⟩ => ⟨S32x8192x128, .i1⟩
  | .hbm, ⟨80, _⟩ => ⟨S_, .f32⟩
  | .hbm, ⟨81, _⟩ => ⟨S32x8192x128, .f32⟩
  | .hbm, ⟨82, _⟩ => ⟨S32x8192x128, .f32⟩
  | .hbm, ⟨83, _⟩ => ⟨S32x128x64x128, .f32⟩
  | .hbm, ⟨84, _⟩ => ⟨S32x128x64x128, .f32⟩
  | .hbm, ⟨85, _⟩ => ⟨S32x128x64x1, .f32⟩
  | .hbm, ⟨86, _⟩ => ⟨S32x128x64x128, .f32⟩
  | .hbm, ⟨87, _⟩ => ⟨S32x128x64x128, .f32⟩
  | .hbm, ⟨88, _⟩ => ⟨S_, .f32⟩
  | .hbm, ⟨89, _⟩ => ⟨S32x128x128, .f32⟩
  | .hbm, ⟨90, _⟩ => ⟨S32x128x128, .f32⟩
  | .hbm, ⟨91, _⟩ => ⟨S1x1x128, .f32⟩
  | .hbm, ⟨92, _⟩ => ⟨S32x128x128, .f32⟩
  | .hbm, ⟨93, _⟩ => ⟨S32x128x128, .f32⟩
  | .hbm, ⟨94, _⟩ => ⟨S_, .f32⟩
  | .hbm, ⟨95, _⟩ => ⟨S32x128x128, .f32⟩
  | .hbm, ⟨96, _⟩ => ⟨S32x128x128, .f32⟩
  | .hbm, ⟨97, _⟩ => ⟨S32x128x128, .f32⟩
  | .hbm, ⟨98, _⟩ => ⟨S32x128x128, .f32⟩
  | .hbm, ⟨99, _⟩ => ⟨S32x128x128, .i1⟩
  | .hbm, ⟨100, _⟩ => ⟨S32x128x128, .f32⟩
  | .hbm, ⟨101, _⟩ => ⟨S32x128x128, .f32⟩
  | .hbm, ⟨102, _⟩ => ⟨S32x128x128, .f32⟩
  | .hbm, ⟨103, _⟩ => ⟨S32x128x128, .f32⟩
  | .hbm, ⟨104, _⟩ => ⟨S32x128x128, .f32⟩
  | .hbm, ⟨105, _⟩ => ⟨S32x128x128, .f32⟩
  | .hbm, ⟨106, _⟩ => ⟨S32x128x128, .f32⟩
  | .hbm, ⟨107, _⟩ => ⟨S32x128x128, .f32⟩
  | .hbm, ⟨108, _⟩ => ⟨S_, .f32⟩
  | .hbm, ⟨109, _⟩ => ⟨S32x128x128, .f32⟩
  | .hbm, ⟨110, _⟩ => ⟨S32x128x128, .f32⟩
  | _, _ => ⟨S32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_v4 : Ref sig .tc := ⟨.hbm, 29, rfl⟩
abbrev main_cst : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_v11 : Ref sig .tc := ⟨.hbm, 38, rfl⟩
abbrev main_v12 : Ref sig .tc := ⟨.hbm, 39, rfl⟩
abbrev main_cst_1 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_v17 : Ref sig .tc := ⟨.hbm, 46, rfl⟩
abbrev main_cst_3 : Ref sig .tc := ⟨.hbm, 47, rfl⟩
abbrev main_v18 : Ref sig .tc := ⟨.hbm, 48, rfl⟩
abbrev main_v19 : Ref sig .tc := ⟨.hbm, 49, rfl⟩
abbrev main_cst_4 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_call1_c : Ref sig .tc := ⟨.hbm, 61, rfl⟩
abbrev main_call1_v0 : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_c_2 : Ref sig .tc := ⟨.hbm, 69, rfl⟩
abbrev main_call1_v5 : Ref sig .tc := ⟨.hbm, 70, rfl⟩
abbrev main_call1_v6 : Ref sig .tc := ⟨.hbm, 71, rfl⟩
abbrev main_call1_v7 : Ref sig .tc := ⟨.hbm, 72, rfl⟩
abbrev main_call1_v8 : Ref sig .tc := ⟨.hbm, 73, rfl⟩
abbrev main_call1_v9 : Ref sig .tc := ⟨.hbm, 74, rfl⟩
abbrev main_call1_v10 : Ref sig .tc := ⟨.hbm, 75, rfl⟩
abbrev main_call1_c_3 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_cst : Ref sig .tc := ⟨.hbm, 80, rfl⟩
abbrev main_call1_v14 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_cst_5 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_call2_cst : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_call2_v3 : Ref sig .tc := ⟨.hbm, 98, rfl⟩
abbrev main_call2_v4 : Ref sig .tc := ⟨.hbm, 99, rfl⟩
abbrev main_call2_v5 : Ref sig .tc := ⟨.hbm, 100, rfl⟩
abbrev main_call2_v6 : Ref sig .tc := ⟨.hbm, 101, rfl⟩
abbrev main_call2_v7 : Ref sig .tc := ⟨.hbm, 102, rfl⟩
abbrev main_call2_v8 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_v41 : Ref sig .tc := ⟨.hbm, 107, rfl⟩
abbrev main_cst_6 : Ref sig .tc := ⟨.hbm, 108, rfl⟩
abbrev main_v42 : Ref sig .tc := ⟨.hbm, 109, rfl⟩
abbrev main_v43 : Ref sig .tc := ⟨.hbm, 110, rfl⟩

abbrev nD : Nat := 1
abbrev τ : Topo := Topo.v7x

variable {F : FTy → Type} [FloatOps F]

class Facts₀ : Prop where
  bcast_S128_S1x1x1x128_3 : S128.BroadcastsInDim S1x1x1x128 (![3] : Fin 1 → Fin S1x1x1x128.rank)
  bcast_S1x1x1x128_S32x128x64x128_0_1_2_3 : S1x1x1x128.BroadcastsInDim S32x128x64x128 (![0, 1, 2, 3] : Fin 4 → Fin S32x128x64x128.rank)
  bcast_S_S32x128x64x128 : S_.BroadcastsInDim S32x128x64x128 (![] : Fin 0 → Fin S32x128x64x128.rank)
  bcast_S_S32x128x64 : S_.BroadcastsInDim S32x128x64 (![] : Fin 0 → Fin S32x128x64.rank)
  bcast_S32x128x64_S32x128x64x1_0_1_2 : S32x128x64.BroadcastsInDim S32x128x64x1 (![0, 1, 2] : Fin 3 → Fin S32x128x64x1.rank)
  bcast_S32x128x64x1_S32x128x64x128_0_1_2_3 : S32x128x64x1.BroadcastsInDim S32x128x64x128 (![0, 1, 2, 3] : Fin 4 → Fin S32x128x64x128.rank)
  shapeCasts_S32x128x64_S32x8192 : S32x128x64.ShapeCasts S32x8192
  bcast_S32x8192_S32x8192x1_0_1 : S32x8192.BroadcastsInDim S32x8192x1 (![0, 1] : Fin 2 → Fin S32x8192x1.rank)
  bcast_S_S32x8192x1 : S_.BroadcastsInDim S32x8192x1 (![] : Fin 0 → Fin S32x8192x1.rank)
  bcast_S1_S1x1x1_2 : S1.BroadcastsInDim S1x1x1 (![2] : Fin 1 → Fin S1x1x1.rank)
  bcast_S1x1x1_S32x8192x1_0_1_2 : S1x1x1.BroadcastsInDim S32x8192x1 (![0, 1, 2] : Fin 3 → Fin S32x8192x1.rank)
  reducesTo_S32x8192x1_S32x8192_d2 : S32x8192x1.ReducesTo [2] S32x8192
  h_S_ : 0 < S_.numel
  bcast_S32x8192_S32x8192x128_0_1 : S32x8192.BroadcastsInDim S32x8192x128 (![0, 1] : Fin 2 → Fin S32x8192x128.rank)
  bcast_S_S32x8192x128 : S_.BroadcastsInDim S32x8192x128 (![] : Fin 0 → Fin S32x8192x128.rank)
  shapeCasts_S32x8192x128_S32x128x64x128 : S32x8192x128.ShapeCasts S32x128x64x128
  reducesTo_S32x128x64x128_S32x128x128_d2 : S32x128x64x128.ReducesTo [2] S32x128x128
  bcast_S128_S1x1x128_2 : S128.BroadcastsInDim S1x1x128 (![2] : Fin 1 → Fin S1x1x128.rank)
  bcast_S1x1x128_S32x128x128_0_1_2 : S1x1x128.BroadcastsInDim S32x128x128 (![0, 1, 2] : Fin 3 → Fin S32x128x128.rank)
  bcast_S_S32x128x128 : S_.BroadcastsInDim S32x128x128 (![] : Fin 0 → Fin S32x128x128.rank)
  dot_S32x128x64x64_S64x128_S32x128x64x128_3_0_012_1_n_n_wf : DotDims.WF S32x128x64x64 S64x128 S32x128x64x128 [3] [0] [0, 1, 2] [1] [] []
  dot_S32x128x64x128_S128x128_S32x128x64x128_3_0_012_1_n_n_wf : DotDims.WF S32x128x64x128 S128x128 S32x128x64x128 [3] [0] [0, 1, 2] [1] [] []
  dot_S32x128x128_S128x128_S32x128x128_2_0_01_1_n_n_wf : DotDims.WF S32x128x128 S128x128 S32x128x128 [2] [0] [0, 1] [1] [] []
  gather_S32x128x128_S32x8192x1_S32x8192x128_2_1_0_0_1_2_11128_wf : GatherDims.WF S32x128x128 S32x8192x1 S32x8192x128 [2] [1] [0] [1] [0] 2 ![1, 1, 128]

variable [Facts₀]

def dot_S32x128x64x64_S64x128_S32x128x64x128_3_0_012_1_n_n : DotDims S32x128x64x64 S64x128 S32x128x64x128 where
  lhsContracting := [3]
  rhsContracting := [0]
  lhsNonContracting := [0, 1, 2]
  rhsNonContracting := [1]
  lhsBatch := []
  rhsBatch := []
  wf := dot_S32x128x64x64_S64x128_S32x128x64x128_3_0_012_1_n_n_wf
def dot_S32x128x64x128_S128x128_S32x128x64x128_3_0_012_1_n_n : DotDims S32x128x64x128 S128x128 S32x128x64x128 where
  lhsContracting := [3]
  rhsContracting := [0]
  lhsNonContracting := [0, 1, 2]
  rhsNonContracting := [1]
  lhsBatch := []
  rhsBatch := []
  wf := dot_S32x128x64x128_S128x128_S32x128x64x128_3_0_012_1_n_n_wf
def dot_S32x128x128_S128x128_S32x128x128_2_0_01_1_n_n : DotDims S32x128x128 S128x128 S32x128x128 where
  lhsContracting := [2]
  rhsContracting := [0]
  lhsNonContracting := [0, 1]
  rhsNonContracting := [1]
  lhsBatch := []
  rhsBatch := []
  wf := dot_S32x128x128_S128x128_S32x128x128_2_0_01_1_n_n_wf
def gather_S32x128x128_S32x8192x1_S32x8192x128_2_1_0_0_1_2_11128 : GatherDims S32x128x128 S32x8192x1 S32x8192x128 where
  offsetDims := [2]
  collapsedSliceDims := [1]
  operandBatchingDims := [0]
  startIndicesBatchingDims := [0]
  startIndexMap := [1]
  indexVectorDim := 2
  sliceSizes := ![1, 1, 128]
  wf := gather_S32x128x128_S32x8192x1_S32x8192x128_2_1_0_0_1_2_11128_wf

class Facts : Prop extends Facts₀ where

variable [Facts]
-- ==== Proof.Spec.lean ====
/-
  Continuous-filter convolution on the extended reals: the one function of a row's data that both programs
  compute.  For an atom a of a molecule, with neighbours nb n (n < 64), distances r n, mask m n and
  expanded distances fij n g:

    out o = ssp ( Σ_f ( Σ_n  y (nb n) f · (filt n f · cut (r n)) · m n ) · W_out f o + b_out o )

  where y a' f = Σ_i x a' i · W_in i f is the dense layer of the molecule's atoms (the neighbour's row of it is
  what is gathered), filt n f = Σ_h ssp (Σ_g fij n g · W₁ g h + b₁ h) · W₂ h f + b₂ f is the filter network,
  cut r = ½ (cos (r · c) + 1) · [r < 5] the cosine cutoff with c the number both programs' literals give for π/5,
  and ssp z = max z 0 + log (1 + exp (−|z|)) − ln 2 the shifted softplus, each literal kept as the binary value
  its pattern denotes.
-/
import Idealize.ShloMosaic.PureOps.Ideal
import Idealize.ShloMosaic.PureOps.Ideal.Laws
import Idealize.ShloMosaic.Lib.ValueIdx

noncomputable section

namespace Cert.CfConv

open Idealize.ShloMosaic Idealize.ShloMosaic.ValueIdx

/-- The value of a condition bit: 1 where it holds, 0 where it does not. -/
def bit (b : BitVec 1) : EReal := ((b.toNat : ℝ) : EReal)

theorem bit_one : bit 1#1 = 1 := by simp [bit]
theorem bit_zero : bit 0#1 = 0 := by simp [bit]

/-- A bit widened to a word and read signed is the bit. -/
theorem toInt_setWidth_eq_bit (b : BitVec 1) : ((((b.setWidth 32).toInt : ℤ) : ℝ) : EReal) = bit b := by
  have h : ∀ b : BitVec 1, (b.setWidth 32).toInt = (b.toNat : ℤ) := by decide
  rw [h b]; unfold bit; norm_cast

/-- No extended real differs from itself: the "is it a NaN" test never fires. -/
theorem cmp_one_self (x : EReal) : Ideal.cmp .one x x = 0#1 := by simp [Ideal.cmp]
theorem cmp_une_self (x : EReal) : Ideal.cmp .une x x = 0#1 := by simp [Ideal.cmp]

/-- Shifted softplus, max z 0 + log (1 + exp (−|z − 0|)) − ln 2, with ln 2 the f32 literal's value. -/
def ssp (z : EReal) : EReal :=
  (max z 0 + Ideal.log1p (Ideal.exp (-(max (z - 0) (-(z - 0)))))) - Ideal.ofBits .f32 0x3F317218#32

/-- Cosine cutoff: ½ (cos (r · c) + 1) where r < 5, and 0 beyond. -/
def cut (r : EReal) : EReal :=
  (Ideal.ofBits .f32 0x3F000000#32 * (Ideal.cos (r * Ideal.ofBits .f32 0x3F20D97C#32) + Ideal.ofBits .f32 0x3F800000#32))
    * bit (Ideal.cmp .olt r (Ideal.ofBits .f32 0x40A00000#32))

/-- 0x40490FDB is 13176795 · 2⁻²², the f32 nearest π. -/
theorem ofBits_pi : Ideal.ofBits .f32 0x40490FDB#32 = ((13176795 / 4194304 : ℝ) : EReal) := by
  simp [Ideal.ofBits, Ideal.ieee, -EReal.coe_mul]; norm_num

/-- 0x40A00000 is 5. -/
theorem ofBits_five : Ideal.ofBits .f32 0x40A00000#32 = ((5 : ℝ) : EReal) := by
  simp [Ideal.ofBits, Ideal.ieee, -EReal.coe_mul]; norm_num

/-- 0x3F20D97C is 2635359 · 2⁻²²: exactly a fifth of the f32 nearest π, since 13176795 = 5 · 2635359. -/
theorem ofBits_fifth_pi : Ideal.ofBits .f32 0x3F20D97C#32 = ((2635359 / 4194304 : ℝ) : EReal) := by
  simp [Ideal.ofBits, Ideal.ieee, -EReal.coe_mul]; norm_num

/-- Scaling a distance by π then dividing by 5 is scaling it by the folded literal, at the infinities too. -/
theorem scale_eq (r : EReal) :
    Ideal.div (r * Ideal.ofBits .f32 0x40490FDB#32) (Ideal.ofBits .f32 0x40A00000#32) = r * Ideal.ofBits .f32 0x3F20D97C#32 := by
  rw [ofBits_five, Ideal.div_coe (by norm_num : (5 : ℝ) ≠ 0), ofBits_pi, ofBits_fifth_pi, mul_assoc, ← EReal.coe_mul]
  congr 2; norm_num

/-- A neighbour word as an atom index: read signed and clamped into 0 … 127. -/
def nbrIdx (w : BitVec 32) : Fin 128 := ⟨min w.toInt.toNat 127, by omega⟩

/-- The filter network's value for one neighbour at filter f. -/
def filt (fij : Fin 64 → EReal) (w1 : Fin 64 → Fin 128 → EReal) (b1 : Fin 128 → EReal)
    (w2 : Fin 128 → Fin 128 → EReal) (b2 : Fin 128 → EReal) (f : Fin 128) : EReal :=
  (∑ h : Fin 128, ssp ((∑ g : Fin 64, fij g * w1 g h) + b1 h) * w2 h f) + b2 f

/-- One atom's output at o: the gathered dense rows weighted by filter, cutoff and mask, summed over the
    neighbours, through the output layer and the shifted softplus. -/
def outRow (y : Fin 128 → Fin 128 → EReal) (r mk : Fin 64 → EReal) (nb : Fin 64 → BitVec 32)
    (fij : Fin 64 → Fin 64 → EReal) (w1 : Fin 64 → Fin 128 → EReal) (b1 : Fin 128 → EReal)
    (w2 : Fin 128 → Fin 128 → EReal) (b2 : Fin 128 → EReal) (wout : Fin 128 → Fin 128 → EReal)
    (bout : Fin 128 → EReal) (o : Fin 128) : EReal :=
  ssp ((∑ f : Fin 128, (∑ n : Fin 64, (y (nbrIdx (nb n)) f * (filt (fij n) w1 b1 w2 b2 f * cut (r n))) * mk n) * wout f o)
    + bout o)

/-- Regrouping a product of four: the mask may be multiplied in first or last. -/
theorem mul_regroup (a b c d : EReal) : a * (b * (c * d)) = (a * (b * c)) * d := by
  rw [← mul_assoc b c d, ← mul_assoc a (b * c) d]

/-- A sum against an indicator of one index picks that index's term. -/
theorem sum_indicator {K : Nat} (k₀ : Fin K) (v : Fin K → EReal) (ind : Fin K → EReal)
    (h1 : ind k₀ = 1) (h0 : ∀ k, k ≠ k₀ → ind k = 0) : (∑ k : Fin K, ind k * v k) = v k₀ := by
  rw [Finset.sum_eq_single k₀ (fun k _ hk => by rw [h0 k hk, zero_mul]) (fun h => absurd (Finset.mem_univ _) h), h1, one_mul]

/-! ## On arrays -/

/-- The convolution of a stack of B molecules at (molecule b, atom a, output o): the row function of molecule b's
    dense layer, atom a's rows of distances, mask, neighbours and expanded distances, and the weights. -/
def cfconv {B : Nat} (X : (⟨3, ![B, 128, 128]⟩ : Shape).Idx → EReal) (R : (⟨3, ![B, 128, 64]⟩ : Shape).Idx → EReal)
    (NB : (⟨3, ![B, 128, 64]⟩ : Shape).Idx → BitVec 32) (MK : (⟨3, ![B, 128, 64]⟩ : Shape).Idx → EReal)
    (FIJ : (⟨4, ![B, 128, 64, 64]⟩ : Shape).Idx → EReal) (Win : (⟨2, ![128, 128]⟩ : Shape).Idx → EReal)
    (W1 : (⟨2, ![64, 128]⟩ : Shape).Idx → EReal) (B1 : (⟨1, ![128]⟩ : Shape).Idx → EReal)
    (W2 : (⟨2, ![128, 128]⟩ : Shape).Idx → EReal) (B2 : (⟨1, ![128]⟩ : Shape).Idx → EReal)
    (Wout : (⟨2, ![128, 128]⟩ : Shape).Idx → EReal) (Bout : (⟨1, ![128]⟩ : Shape).Idx → EReal)
    (b : Fin B) (a o : Fin 128) : EReal :=
  outRow (fun a' f => ∑ i : Fin 128, X (ix3 b a' i) * Win (ix2 i f))
    (fun n => R (ix3 b a n)) (fun n => MK (ix3 b a n)) (fun n => NB (ix3 b a n)) (fun n g => FIJ (ix4 b a n g))
    (fun g h => W1 (ix2 g h)) (fun h => B1 (ix1 h)) (fun h f => W2 (ix2 h f)) (fun f => B2 (ix1 f))
    (fun f o' => Wout (ix2 f o')) (fun o' => Bout (ix1 o')) o

/-- The convolution at (b, a, ·) reads the stacks only at molecule b (all its atoms' features, atom a's other rows):
    two stacks that agree there give the same value. -/
theorem cfconv_congr {B B' : Nat} (X : (⟨3, ![B, 128, 128]⟩ : Shape).Idx → EReal) (R : (⟨3, ![B, 128, 64]⟩ : Shape).Idx → EReal)
    (NB : (⟨3, ![B, 128, 64]⟩ : Shape).Idx → BitVec 32) (MK : (⟨3, ![B, 128, 64]⟩ : Shape).Idx → EReal)
    (FIJ : (⟨4, ![B, 128, 64, 64]⟩ : Shape).Idx → EReal)
    (X' : (⟨3, ![B', 128, 128]⟩ : Shape).Idx → EReal) (R' : (⟨3, ![B', 128, 64]⟩ : Shape).Idx → EReal)
    (NB' : (⟨3, ![B', 128, 64]⟩ : Shape).Idx → BitVec 32) (MK' : (⟨3, ![B', 128, 64]⟩ : Shape).Idx → EReal)
    (FIJ' : (⟨4, ![B', 128, 64, 64]⟩ : Shape).Idx → EReal)
    (Win : (⟨2, ![128, 128]⟩ : Shape).Idx → EReal)
    (W1 : (⟨2, ![64, 128]⟩ : Shape).Idx → EReal) (B1 : (⟨1, ![128]⟩ : Shape).Idx → EReal)
    (W2 : (⟨2, ![128, 128]⟩ : Shape).Idx → EReal) (B2 : (⟨1, ![128]⟩ : Shape).Idx → EReal)
    (Wout : (⟨2, ![128, 128]⟩ : Shape).Idx → EReal) (Bout : (⟨1, ![128]⟩ : Shape).Idx → EReal)
    (b : Fin B) (b' : Fin B') (a : Fin 128)
    (hX : ∀ a' i, X' (ix3 b' a' i) = X (ix3 b a' i)) (hR : ∀ n, R' (ix3 b' a n) = R (ix3 b a n))
    (hNB : ∀ n, NB' (ix3 b' a n) = NB (ix3 b a n)) (hMK : ∀ n, MK' (ix3 b' a n) = MK (ix3 b a n))
    (hFIJ : ∀ n g, FIJ' (ix4 b' a n g) = FIJ (ix4 b a n g)) (o : Fin 128) :
    cfconv X' R' NB' MK' FIJ' Win W1 B1 W2 B2 Wout Bout b' a o = cfconv X R NB MK FIJ Win W1 B1 W2 B2 Wout Bout b a o := by
  unfold cfconv
  simp only [hX, hR, hNB, hMK, hFIJ]

/-- The whole result array: entry (b, a, o) of the 32 molecules' convolution. -/
def cfconvArr (X : (⟨3, ![32, 128, 128]⟩ : Shape).Idx → EReal) (R : (⟨3, ![32, 128, 64]⟩ : Shape).Idx → EReal)
    (NB : (⟨3, ![32, 128, 64]⟩ : Shape).Idx → BitVec 32) (MK : (⟨3, ![32, 128, 64]⟩ : Shape).Idx → EReal)
    (FIJ : (⟨4, ![32, 128, 64, 64]⟩ : Shape).Idx → EReal) (Win : (⟨2, ![128, 128]⟩ : Shape).Idx → EReal)
    (W1 : (⟨2, ![64, 128]⟩ : Shape).Idx → EReal) (B1 : (⟨1, ![128]⟩ : Shape).Idx → EReal)
    (W2 : (⟨2, ![128, 128]⟩ : Shape).Idx → EReal) (B2 : (⟨1, ![128]⟩ : Shape).Idx → EReal)
    (Wout : (⟨2, ![128, 128]⟩ : Shape).Idx → EReal) (Bout : (⟨1, ![128]⟩ : Shape).Idx → EReal) :
    (⟨3, ![32, 128, 128]⟩ : Shape).Idx → EReal :=
  fun i => cfconv (B := 32) X R NB MK FIJ Win W1 B1 W2 B2 Wout Bout ⟨(i 0).val, (i 0).isLt⟩ ⟨(i 1).val, (i 1).isLt⟩ ⟨(i 2).val, (i 2).isLt⟩

end Cert.CfConv

end
-- ==== Proof.LibPlainDot.lean ====
/-
  A plain matrix product read at an entry.

  For the dimension numbers of an [M, K] by [K, N] product with no batch axis (DotDims.plain M K N: the
  left operand contracted on its second axis, the right on its first), a tpu.matmul into the zero splat, read at
  the extended reals at the entry (p, q), is the sum over k < K of left (p, k) times right (k, q).  The
  contraction index of such a product is one coordinate, so the library's sum over the contraction shape is
  re-indexed by that coordinate; on the other three operand axes the operand index reads the result index.
-/
import Idealize.ShloMosaic.PureOps.Ideal.Laws
import Idealize.ShloMosaic.Lib.ValueIdx

noncomputable section

namespace Cert.LibPlainDot

open Idealize.ShloMosaic Idealize.ShloMosaic.ValueIdx

/-- The left operand's index of a plain product at result entry (p, q) and contraction coordinate k is (p, k). -/
theorem plain_lhsIdx (M K N : Nat) (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl _ _).trans
        (contrEquiv1_symm_val (DotDims.plain M K N) K rfl rfl k))

/-- The right operand's index there is (k, q). -/
theorem plain_rhsIdx (M K N : Nat) (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => rfl)

/-- A plain product accumulated into the zero splat, at entry (p, q): the sum over k of left (p, k) · right (k, q). -/
theorem plain_matmul_zero_apply (M K N : Nat) {φ₁ φ₂ : FTy} (L : FVec Ideal ⟨2, ![M, K]⟩ φ₁) (R : FVec Ideal ⟨2, ![K, N]⟩ φ₂)
    (p : Fin M) (q : Fin N) :
    matmul (DotDims.plain M K N) none L R (constant ⟨2, ![M, N]⟩ .f32 0x00000000#32) (ix2 p q)
      = ∑ k : Fin K, L (ix2 p k) * R (ix2 k q) := by
  show FloatOps.matmul (DotDims.plain M K N) none L R (constant ⟨2, ![M, N]⟩ .f32 0x00000000#32) (ix2 p q) = _
  rw [Ideal.matmul_constant_zero_apply, ← Equiv.sum_comp (contrEquiv1 (DotDims.plain M K N) K rfl rfl).symm]
  refine Finset.sum_congr rfl fun k _ => ?_
  rw [plain_lhsIdx, plain_rhsIdx]

/-- The same for any dimension numbers that are the plain ones. -/
theorem matmul_zero_apply_of_plain {M K N : Nat} (d : DotDims ⟨2, ![M, K]⟩ ⟨2, ![K, N]⟩ ⟨2, ![M, N]⟩) (hd : d = DotDims.plain M K N)
    {φ₁ φ₂ : FTy} (L : FVec Ideal ⟨2, ![M, K]⟩ φ₁) (R : FVec Ideal ⟨2, ![K, N]⟩ φ₂) (p : Fin M) (q : Fin N) :
    matmul d none L R (constant ⟨2, ![M, N]⟩ .f32 0x00000000#32) (ix2 p q) = ∑ k : Fin K, L (ix2 p k) * R (ix2 k q) := by
  subst hd; exact plain_matmul_zero_apply M K N L R p q

end Cert.LibPlainDot

end
-- ==== Proof.KChunk.lean ====
/-
  One chunk of the kernel's body, stage by stage, read at an entry on the extended reals.
-/
import proofs.«425382_j84945863180598_3_alg».proof.Proof.Gen.KernelIdeal.Skeleton
import proofs.«425382_j84945863180598_3_alg».proof.Proof.Spec
import proofs.«425382_j84945863180598_3_alg».proof.Proof.LibPlainDot
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate

noncomputable section

namespace Cert.KernelIdeal.Chunk

open Idealize.ShloMosaic Idealize.ShloMosaic.ValueIdx Cert.KernelIdeal Cert.KernelIdeal.Gen Cert.CfConv
open Cert.KernelIdeal.Facts

variable [Facts]

/-- Row b·128 + a of the two stacked molecules' atoms. -/
abbrev rowX (bl : Fin 2) (a : Fin 128) : Fin 256 := ⟨bl.val * 128 + a.val, by have := bl.isLt; have := a.isLt; omega⟩
/-- Row (b·32 + a)·64 + n of the chunk's flattened (molecule, atom, neighbour) triples. -/
abbrev row3 (bl : Fin 2) (a : Fin 32) (n : Fin 64) : Fin 4096 :=
  ⟨(bl.val * 32 + a.val) * 64 + n.val, by have := bl.isLt; have := a.isLt; have := n.isLt; omega⟩
/-- Row b·32 + a of the chunk's flattened (molecule, atom) pairs. -/
abbrev row2 (bl : Fin 2) (a : Fin 32) : Fin 64 := ⟨bl.val * 32 + a.val, by have := bl.isLt; have := a.isLt; omega⟩

section Generic
variable {F : FTy → Type} [FloatOps F]

/-- The shifted softplus as the body's lane operations, on any shape. -/
def sspV {s : Shape} (z : FVec F s .f32) : FVec F s .f32 :=
  subf
    (select (cmpf .one (subf z (broadcast s (Scalar.ofBits .f32 0x00000000#32))) (subf z (broadcast s (Scalar.ofBits .f32 0x00000000#32))))
      (addf z (broadcast s (Scalar.ofBits .f32 0x00000000#32)))
      (addf (maximumf z (broadcast s (Scalar.ofBits .f32 0x00000000#32)))
        (log1p (exp (subf (broadcast s (Scalar.ofBits .f32 0x00000000#32)) (absf (subf z (broadcast s (Scalar.ofBits .f32 0x00000000#32)))))))))
    (broadcast s (Scalar.ofBits .f32 0x3F317218#32))

/-- The cosine cutoff as the body's lane operations. -/
def cutV {s : Shape} (r : FVec F s .f32) : FVec F s .f32 :=
  mulf
    (mulf (broadcast s (Scalar.ofBits .f32 0x3F000000#32))
      (addf (cos (mulf r (broadcast s (Scalar.ofBits .f32 0x3F20D97C#32)))) (broadcast s (Scalar.ofBits .f32 0x3F800000#32))))
    (sitofp .f32 (extui 32 (cmpf .olt r (broadcast s (Scalar.ofBits .f32 0x40A00000#32))) natLt_1_32))

end Generic

/-- Lane by lane the body's softplus is the shifted softplus: the self-comparison never fires, and 0 − |·| is −|·|. -/
theorem sspV_apply {s : Shape} (z : FVec Ideal s .f32) (i : s.Idx) : sspV z i = ssp (z i) := by
  show Scalar.select (Ideal.cmp .one (z i - Ideal.ofBits .f32 0x00000000#32) (z i - Ideal.ofBits .f32 0x00000000#32))
      (z i + Ideal.ofBits .f32 0x00000000#32)
      (max (z i) (Ideal.ofBits .f32 0x00000000#32)
        + Ideal.log1p (Ideal.exp (Ideal.ofBits .f32 0x00000000#32
            - max (z i - Ideal.ofBits .f32 0x00000000#32) (-(z i - Ideal.ofBits .f32 0x00000000#32)))))
      - Ideal.ofBits .f32 0x3F317218#32 = ssp (z i)
  rw [cmp_one_self, select_zero, Ideal.ofBits_zero_f32, zero_sub]
  rfl

/-- Lane by lane the body's cutoff is the cosine cutoff: the widened comparison bit converted is the bit's value. -/
theorem cutV_apply {s : Shape} (r : FVec Ideal s .f32) (i : s.Idx) : cutV r i = cut (r i) := by
  show (Ideal.ofBits .f32 0x3F000000#32 * (Ideal.cos (r i * Ideal.ofBits .f32 0x3F20D97C#32) + Ideal.ofBits .f32 0x3F800000#32))
      * ((((Ideal.cmp .olt (r i) (Ideal.ofBits .f32 0x40A00000#32)).setWidth 32).toInt : ℝ) : EReal) = cut (r i)
  rw [toInt_setWidth_eq_bit]
  rfl

/-- The dense layer of the two stacked molecules at row b·128 + a, column f: Σ_i x (b, a, i) · W (i, f). -/
theorem dense_apply (win : FVec Ideal S128x128 .f32) (xb : FVec Ideal S2x128x128 .f32) (bl : Fin 2) (a f : Fin 128) :
    k0_pay5 (F := Ideal) win xb (ix2 (rowX bl a) f) = ∑ i : Fin 128, xb (ix3 bl a i) * win (ix2 i f) := by
  unfold k0_pay5
  show matmul dot_S256x128_S128x128_S256x128_1_0_0_1_n_n none
      (truncf .bf16 (shapeCast S256x128 xb shapeCasts_S2x128x128_S256x128) bitsLt_bf16_f32) (truncf .bf16 win bitsLt_bf16_f32)
      (constant S256x128 .f32 0x00000000#32) (ix2 (rowX bl a) f) = _
  refine (LibPlainDot.matmul_zero_apply_of_plain (M := 256) (K := 128) (N := 128) dot_S256x128_S128x128_S256x128_1_0_0_1_n_n rfl _ _ _ _).trans ?_
  refine Finset.sum_congr rfl fun i _ => ?_
  show shapeCast S256x128 xb shapeCasts_S2x128x128_S256x128 (ix2 (rowX bl a) i) * win (ix2 i f) = _
  rw [shapeCast_apply xb shapeCasts_S2x128x128_S256x128 (ix2 (rowX bl a) i) (ix3 bl a i)
    (by rw [Shape.rowMajor_val_three, Shape.rowMajor_val_two]; rfl)]

/-- A bias laid down the rows of a matrix: at (m, h) it is the bias at h. -/
theorem biasRows_apply {M : Nat} (b : FVec Ideal S128 .f32) (hbc : S1x128.Broadcasts ⟨2, ![M, 128]⟩) (m : Fin M) (h : Fin 128) :
    broadcastTo ⟨2, ![M, 128]⟩ (shapeCast S1x128 b shapeCasts_S128_S1x128) hbc (ix2 m h) = b (ix1 h) := by
  rw [broadcastTo_1b_ab_apply, shapeCast_a_1a_apply]

/-- The filter network's first layer before its activation, at triple (b, a, n) and hidden unit h:
    Σ_g fij (b, a, n, g) · W₁ (g, h) + b₁ h. -/
theorem filt1_apply (wf1 : FVec Ideal S64x128 .f32) (bf1 : FVec Ideal S128 .f32) (fc : FVec Ideal S2x32x64x64 .f32)
    (bl : Fin 2) (a : Fin 32) (n : Fin 64) (h : Fin 128) :
    k0_pay7 (F := Ideal) wf1 bf1 fc (ix2 (row3 bl a n) h) = (∑ g : Fin 64, fc (ix4 bl a n g) * wf1 (ix2 g h)) + bf1 (ix1 h) := by
  unfold k0_pay7 k0_pay2
  show matmul dot_S4096x64_S64x128_S4096x128_1_0_0_1_n_n none
        (truncf .bf16 (shapeCast S4096x64 fc shapeCasts_S2x32x64x64_S4096x64) bitsLt_bf16_f32) (truncf .bf16 wf1 bitsLt_bf16_f32)
        (constant S4096x128 .f32 0x00000000#32) (ix2 (row3 bl a n) h)
      + broadcastTo S4096x128 (shapeCast S1x128 bf1 shapeCasts_S128_S1x128) broadcasts_S1x128_S4096x128 (ix2 (row3 bl a n) h) = _
  rw [biasRows_apply]
  refine congrArg (· + bf1 (ix1 h)) ?_
  refine (LibPlainDot.matmul_zero_apply_of_plain (M := 4096) (K := 64) (N := 128) dot_S4096x64_S64x128_S4096x128_1_0_0_1_n_n rfl _ _ _ _).trans ?_
  refine Finset.sum_congr rfl fun g _ => ?_
  show shapeCast S4096x64 fc shapeCasts_S2x32x64x64_S4096x64 (ix2 (row3 bl a n) g) * wf1 (ix2 g h) = _
  rw [shapeCast_apply fc shapeCasts_S2x32x64x64_S4096x64 (ix2 (row3 bl a n) g) (ix4 bl a n g)
    (by rw [Shape.rowMajor_val_four, Shape.rowMajor_val_two]; rfl)]

/-- The per-molecule row offset: 128 times the molecule's number in the pair. -/
theorem off_apply (bl : Fin 2) (u v : Fin 1) : k0_pay6 (ix3 bl u v) = IntOp.muli (BitVec.ofNat 32 bl.val) 128#32 := by
  unfold k0_pay6
  show IntOp.muli (iota .tc S2x1x1 32 [0] iota_S2x1x1_d0_w32 (ix3 bl u v)) 128#32 = _
  rw [iota_single_apply]

section Generic
variable {F : FTy → Type} [FloatOps F]

/-- The filter network's second layer on the activated first, as (molecule, atom, neighbour, filter). -/
def filtV (wf2 : FVec F S128x128 .bf16) (bf2 : Vec F S128 .f32) (t1 : FVec F S4096x128 .f32) : FVec F S2x32x64x128 .f32 :=
  shapeCast S2x32x64x128
    (addf
      (matmul dot_S4096x128_S128x128_S4096x128_1_0_0_1_n_n none (truncf .bf16 (sspV t1) bitsLt_bf16_f32) wf2
        (constant S4096x128 .f32 0x00000000#32))
      (broadcastTo S4096x128 (shapeCast S1x128 bf2 shapeCasts_S128_S1x128) broadcasts_S1x128_S4096x128))
    shapeCasts_S4096x128_S2x32x64x128

/-- Cutoff times mask, laid along the filter axis. -/
def wgtV (rc mc : Vec F S2x32x64 .f32) : FVec F S2x32x64x128 .f32 :=
  broadcastTo S2x32x64x128 (shapeCast S2x32x64x1 (mulf (cutV rc) mc) shapeCasts_S2x32x64_S2x32x64x1)
    broadcasts_S2x32x64x1_S2x32x64x128

/-- The indicator matrix of the neighbour rows: entry (triple, k) is 1 where neighbour + offset is k. -/
def onehotV (off : IVec S2x1x1 32) (nbc : Vec F S2x32x64 .i32) : FVec F S4096x256 .bf16 :=
  shapeCast S4096x256
    (truncf .bf16
      (sitofp .f32
        (extui 32
          (cmpi .eq
            (broadcastTo S2x32x64x256
              (shapeCast S2x32x64x1 (addi nbc (broadcastTo S2x32x64 off broadcasts_S2x1x1_S2x32x64)) shapeCasts_S2x32x64_S2x32x64x1)
              broadcasts_S2x32x64x1_S2x32x64x256)
            (iota .tc S2x32x64x256 32 [3] iota_S2x32x64x256_d3_w32))
          natLt_1_32))
      bitsLt_bf16_f32)
    shapeCasts_S2x32x64x256_S4096x256

/-- The indicator matrix times the stacked dense rows: the gathered rows, as (molecule, atom, neighbour, filter). -/
def gatherV (oh : FVec F S4096x256 .bf16) (y : FVec F S256x128 .bf16) : FVec F S2x32x64x128 .f32 :=
  shapeCast S2x32x64x128
    (matmul dot_S4096x256_S256x128_S4096x128_1_0_0_1_n_n none oh y (constant S4096x128 .f32 0x00000000#32))
    shapeCasts_S4096x128_S2x32x64x128

/-- Gathered row times (filter times (cutoff times mask)). -/
def prodV (wf2 : FVec F S128x128 .bf16) (bf2 : Vec F S128 .f32) (y : FVec F S256x128 .bf16) (off : IVec S2x1x1 32)
    (rc mc : Vec F S2x32x64 .f32) (nbc : Vec F S2x32x64 .i32) (t1 : FVec F S4096x128 .f32) : FVec F S2x32x64x128 .f32 :=
  mulf (gatherV (onehotV off nbc) y) (mulf (filtV wf2 bf2 t1) (wgtV rc mc))

/-- Sum over the neighbours, the output layer, the shifted softplus. -/
def outV (wout : FVec F S128x128 .bf16) (bout : Vec F S128 .f32) (p : FVec F S2x32x64x128 .f32) : FVec F S2x32x128 .f32 :=
  shapeCast S2x32x128
    (sspV
      (addf
        (matmul dot_S64x128_S128x128_S64x128_1_0_0_1_n_n none
          (truncf .bf16
            (shapeCast S64x128
              (multiReduction .add [2] S2x32x128 p 0x00000000#32 reduces_S2x32x64x128_S2x32x128 (.inl rfl) rfl)
              shapeCasts_S2x32x128_S64x128)
            bitsLt_bf16_f32)
          wout (constant S64x128 .f32 0x00000000#32))
        (broadcastTo S64x128 (shapeCast S1x128 bout shapeCasts_S128_S1x128) broadcasts_S1x128_S64x128)))
    shapeCasts_S64x128_S2x32x128

/-- The body's product tensor is that composite. -/
theorem pay8_eq (wf2 : FVec F S128x128 .bf16) (bf2 : Vec F S128 .f32) (y : FVec F S256x128 .bf16) (off : IVec S2x1x1 32)
    (rc mc : Vec F S2x32x64 .f32) (nbc : Vec F S2x32x64 .i32) (t1 : FVec F S4096x128 .f32) :
    k0_pay8 wf2 bf2 y off rc mc nbc t1 = prodV wf2 bf2 y off rc mc nbc t1 := rfl

/-- The body's stored value is that composite. -/
theorem pay9_eq (wout : FVec F S128x128 .bf16) (bout : Vec F S128 .f32) (p : FVec F S2x32x64x128 .f32) :
    k0_pay9 wout bout p = outV wout bout p := rfl

end Generic

/-- The filter at (b, a, n, f): Σ_h ssp (t₁ (triple, h)) · W₂ (h, f) + b₂ f. -/
theorem filtV_apply (wf2 : FVec Ideal S128x128 .bf16) (bf2 : FVec Ideal S128 .f32) (t1 : FVec Ideal S4096x128 .f32)
    (bl : Fin 2) (a : Fin 32) (n : Fin 64) (f : Fin 128) :
    filtV wf2 bf2 t1 (ix4 bl a n f) = (∑ h : Fin 128, ssp (t1 (ix2 (row3 bl a n) h)) * wf2 (ix2 h f)) + bf2 (ix1 f) := by
  unfold filtV
  rw [shapeCast_apply _ shapeCasts_S4096x128_S2x32x64x128 (ix4 bl a n f) (ix2 (row3 bl a n) f)
    (by rw [Shape.rowMajor_val_four, Shape.rowMajor_val_two]; rfl)]
  show matmul dot_S4096x128_S128x128_S4096x128_1_0_0_1_n_n none (truncf .bf16 (sspV t1) bitsLt_bf16_f32) wf2
        (constant S4096x128 .f32 0x00000000#32) (ix2 (row3 bl a n) f)
      + broadcastTo S4096x128 (shapeCast S1x128 bf2 shapeCasts_S128_S1x128) broadcasts_S1x128_S4096x128 (ix2 (row3 bl a n) f) = _
  rw [biasRows_apply]
  refine congrArg (· + bf2 (ix1 f)) ?_
  refine (LibPlainDot.matmul_zero_apply_of_plain (M := 4096) (K := 128) (N := 128) dot_S4096x128_S128x128_S4096x128_1_0_0_1_n_n rfl _ _ _ _).trans ?_
  refine Finset.sum_congr rfl fun h _ => ?_
  show sspV t1 (ix2 (row3 bl a n) h) * wf2 (ix2 h f) = _
  rw [sspV_apply]

/-- Cutoff times mask at (b, a, n), whatever the filter. -/
theorem wgtV_apply (rc mc : FVec Ideal S2x32x64 .f32) (bl : Fin 2) (a : Fin 32) (n : Fin 64) (f : Fin 128) :
    wgtV (F := Ideal) rc mc (ix4 bl a n f) = cut (rc (ix3 bl a n)) * mc (ix3 bl a n) := by
  unfold wgtV
  rw [broadcastTo_apply _ broadcasts_S2x32x64x1_S2x32x64x128 (ix4 bl a n f) (ix4 bl a n (0 : Fin 1)) (fun ax => by
    match ax with
    | ⟨0, _⟩ => rfl
    | ⟨1, _⟩ => rfl
    | ⟨2, _⟩ => rfl
    | ⟨3, _⟩ => rfl)]
  rw [shapeCast_apply _ shapeCasts_S2x32x64_S2x32x64x1 (ix4 bl a n (0 : Fin 1)) (ix3 bl a n)
    (by rw [Shape.rowMajor_val_four, Shape.rowMajor_val_three]
        show (bl.val * 32 + a.val) * 64 + n.val = ((bl.val * 32 + a.val) * 64 + n.val) * 1 + 0
        omega)]
  show cutV rc (ix3 bl a n) * mc (ix3 bl a n) = _
  rw [cutV_apply]

/-- The indicator matrix at (triple, k): the value of the bit "neighbour word + the molecule's offset = k". -/
theorem onehotV_apply (off : IVec S2x1x1 32) (nbc : IVec S2x32x64 32) (bl : Fin 2) (a : Fin 32) (n : Fin 64) (k : Fin 256) :
    onehotV (F := Ideal) off nbc (ix2 (row3 bl a n) k)
      = bit (IntOp.cmpi .eq (IntOp.addi (nbc (ix3 bl a n)) (off (ix3 bl (0 : Fin 1) (0 : Fin 1)))) (BitVec.ofNat 32 k.val)) := by
  unfold onehotV
  rw [shapeCast_apply _ shapeCasts_S2x32x64x256_S4096x256 (ix2 (row3 bl a n) k) (ix4 bl a n k)
    (by rw [Shape.rowMajor_val_four, Shape.rowMajor_val_two]; rfl)]
  show ((((IntOp.cmpi .eq
      (broadcastTo S2x32x64x256
        (shapeCast S2x32x64x1 (addi nbc (broadcastTo S2x32x64 off broadcasts_S2x1x1_S2x32x64)) shapeCasts_S2x32x64_S2x32x64x1)
        broadcasts_S2x32x64x1_S2x32x64x256 (ix4 bl a n k))
      (iota .tc S2x32x64x256 32 [3] iota_S2x32x64x256_d3_w32 (ix4 bl a n k))).setWidth 32).toInt : ℝ) : EReal) = _
  rw [toInt_setWidth_eq_bit, iota_single_apply]
  rw [broadcastTo_apply _ broadcasts_S2x32x64x1_S2x32x64x256 (ix4 bl a n k) (ix4 bl a n (0 : Fin 1)) (fun ax => by
    match ax with
    | ⟨0, _⟩ => rfl
    | ⟨1, _⟩ => rfl
    | ⟨2, _⟩ => rfl
    | ⟨3, _⟩ => rfl)]
  rw [shapeCast_apply _ shapeCasts_S2x32x64_S2x32x64x1 (ix4 bl a n (0 : Fin 1)) (ix3 bl a n)
    (by rw [Shape.rowMajor_val_four, Shape.rowMajor_val_three]
        show (bl.val * 32 + a.val) * 64 + n.val = ((bl.val * 32 + a.val) * 64 + n.val) * 1 + 0
        omega)]
  show bit (IntOp.cmpi .eq (IntOp.addi (nbc (ix3 bl a n)) (broadcastTo S2x32x64 off broadcasts_S2x1x1_S2x32x64 (ix3 bl a n))) _) = _
  rw [broadcastTo_apply off broadcasts_S2x1x1_S2x32x64 (ix3 bl a n) (ix3 bl (0 : Fin 1) (0 : Fin 1)) (fun ax => by
    match ax with
    | ⟨0, _⟩ => rfl
    | ⟨1, _⟩ => rfl
    | ⟨2, _⟩ => rfl)]

/-- The gathered tensor at (b, a, n, f): the indicator row of the triple against column f of the stacked dense rows. -/
theorem gatherV_apply (oh : FVec Ideal S4096x256 .bf16) (y : FVec Ideal S256x128 .bf16) (bl : Fin 2) (a : Fin 32) (n : Fin 64) (f : Fin 128) :
    gatherV oh y (ix4 bl a n f) = ∑ k : Fin 256, oh (ix2 (row3 bl a n) k) * y (ix2 k f) := by
  unfold gatherV
  rw [shapeCast_apply _ shapeCasts_S4096x128_S2x32x64x128 (ix4 bl a n f) (ix2 (row3 bl a n) f)
    (by rw [Shape.rowMajor_val_four, Shape.rowMajor_val_two]; rfl)]
  exact LibPlainDot.matmul_zero_apply_of_plain (M := 4096) (K := 256) (N := 128) dot_S4096x256_S256x128_S4096x128_1_0_0_1_n_n rfl _ _ _ _

/-- The stored value at (b, a, o): ssp (Σ_f (Σ_n p (b, a, n, f)) · W_out (f, o) + b_out o). -/
theorem outV_apply (wout : FVec Ideal S128x128 .bf16) (bout : FVec Ideal S128 .f32) (p : FVec Ideal S2x32x64x128 .f32)
    (bl : Fin 2) (a : Fin 32) (o : Fin 128) :
    outV wout bout p (ix3 bl a o) = ssp ((∑ f : Fin 128, (∑ n : Fin 64, p (ix4 bl a n f)) * wout (ix2 f o)) + bout (ix1 o)) := by
  unfold outV
  rw [shapeCast_apply _ shapeCasts_S64x128_S2x32x128 (ix3 bl a o) (ix2 (row2 bl a) o)
    (by rw [Shape.rowMajor_val_three, Shape.rowMajor_val_two]; rfl)]
  rw [sspV_apply]
  refine congrArg ssp ?_
  show matmul dot_S64x128_S128x128_S64x128_1_0_0_1_n_n none _ wout (constant S64x128 .f32 0x00000000#32) (ix2 (row2 bl a) o)
      + broadcastTo S64x128 (shapeCast S1x128 bout shapeCasts_S128_S1x128) broadcasts_S1x128_S64x128 (ix2 (row2 bl a) o) = _
  rw [biasRows_apply]
  refine congrArg (· + bout (ix1 o)) ?_
  refine (LibPlainDot.matmul_zero_apply_of_plain (M := 64) (K := 128) (N := 128) dot_S64x128_S128x128_S64x128_1_0_0_1_n_n rfl _ _ _ _).trans ?_
  refine Finset.sum_congr rfl fun f _ => ?_
  refine congrArg (· * wout (ix2 f o)) ?_
  show shapeCast S64x128 (multiReduction .add [2] S2x32x128 p 0x00000000#32 reduces_S2x32x64x128_S2x32x128 (.inl rfl) rfl)
      shapeCasts_S2x32x128_S64x128 (ix2 (row2 bl a) f) = _
  rw [shapeCast_apply _ shapeCasts_S2x32x128_S64x128 (ix2 (row2 bl a) f) (ix3 bl a f)
    (by rw [Shape.rowMajor_val_three, Shape.rowMajor_val_two]; rfl)]
  refine (Ideal.multiReduction_add_single p 0x00000000#32 reduces_S2x32x64x128_S2x32x128 (.inl rfl) rfl (ix3 bl a f)).trans ?_
  refine Finset.sum_congr rfl fun n _ => congrArg p (funext fun d => Fin.ext ?_)
  match d with
  | ⟨0, _⟩ => rfl
  | ⟨1, _⟩ => rfl
  | ⟨2, _⟩ => rfl
  | ⟨3, _⟩ => rfl

/-! ## The indicator picks the neighbour's row -/

/-- A neighbour word in 0 … 127 read signed is its unsigned value, below 128. -/
theorem toNat_of_range (w : BitVec 32) (h0 : 0 ≤ w.toInt) (h1 : w.toInt < 128) : w.toNat < 128 ∧ w.toInt.toNat = w.toNat := by
  have h := BitVec.toInt_eq_toNat_cond w
  have hlt := w.isLt
  split at h <;> omega

/-- For a neighbour word in range, "word + 128 · molecule = k" holds exactly at k = 128 · molecule + the neighbour's index:
    nothing wraps, since everything stays below 256. -/
theorem onehot_iff (w : BitVec 32) (h0 : 0 ≤ w.toInt) (h1 : w.toInt < 128) (bl : Fin 2) (k : Fin 256) :
    IntOp.cmpi .eq (IntOp.addi w (IntOp.muli (BitVec.ofNat 32 bl.val) 128#32)) (BitVec.ofNat 32 k.val) = 1#1
      ↔ k = rowX bl (nbrIdx w) := by
  rw [StableHlo.Predicate.cmpi_eq_iff]
  obtain ⟨hn, ht⟩ := toNat_of_range w h0 h1
  have hk := k.isLt
  have hb := bl.isLt
  have hv : (nbrIdx w).val = w.toNat := by show min w.toInt.toNat 127 = w.toNat; omega
  constructor
  · intro h
    have h' := congrArg BitVec.toNat h
    simp only [IntOp.addi, IntOp.muli, BitVec.toNat_add, BitVec.toNat_mul, BitVec.toNat_ofNat] at h'
    apply Fin.ext
    show k.val = bl.val * 128 + (nbrIdx w).val
    rw [hv]
    omega
  · intro h
    have hkv : k.val = bl.val * 128 + w.toNat := by rw [h]; show bl.val * 128 + (nbrIdx w).val = _; rw [hv]
    apply BitVec.eq_of_toNat_eq
    simp only [IntOp.addi, IntOp.muli, BitVec.toNat_add, BitVec.toNat_mul, BitVec.toNat_ofNat]
    omega

section Generic
variable {F : FTy → Type} [FloatOps F]

/-- One chunk of the body: from the weights, the two molecules' features and the chunk's rows of distances, mask,
    neighbours and expanded distances, the chunk's rows of the output. -/
def chunkV (win : Vec F S128x128 .f32) (wf1 : Vec F S64x128 .f32) (bf1 : Vec F S128 .f32) (wf2 : Vec F S128x128 .f32)
    (bf2 : Vec F S128 .f32) (wout : Vec F S128x128 .f32) (bout : Vec F S128 .f32) (xb : Vec F S2x128x128 .f32)
    (rc mc : Vec F S2x32x64 .f32) (nbc : Vec F S2x32x64 .i32) (fc : Vec F S2x32x64x64 .f32) : FVec F S2x32x128 .f32 :=
  outV (k0_pay4 wout) bout (prodV (k0_pay3 wf2) bf2 (k0_pay5 win xb) k0_pay6 rc mc nbc (k0_pay7 wf1 bf1 fc))

end Generic

/-- ONE CHUNK AT AN ENTRY.  With every neighbour word of the chunk in 0 … 127, the chunk's value at (molecule b, atom a of
    the chunk, output o) is the specification's row function of molecule b's dense layer, atom a's rows of distances, mask,
    neighbours and expanded distances, and the weights: the indicator sum picks the neighbour's dense row, and the mask,
    multiplied in with the cutoff here, regroups to the outside. -/
theorem chunkV_apply (win : FVec Ideal S128x128 .f32) (wf1 : FVec Ideal S64x128 .f32) (bf1 : FVec Ideal S128 .f32)
    (wf2 : FVec Ideal S128x128 .f32) (bf2 : FVec Ideal S128 .f32) (wout : FVec Ideal S128x128 .f32) (bout : FVec Ideal S128 .f32)
    (xb : FVec Ideal S2x128x128 .f32) (rc mc : FVec Ideal S2x32x64 .f32) (nbc : IVec S2x32x64 32) (fc : FVec Ideal S2x32x64x64 .f32)
    (hnb : ∀ (bl : Fin 2) (a : Fin 32) (n : Fin 64), 0 ≤ (nbc (ix3 bl a n)).toInt ∧ (nbc (ix3 bl a n)).toInt < 128)
    (bl : Fin 2) (a : Fin 32) (o : Fin 128) :
    chunkV (F := Ideal) win wf1 bf1 wf2 bf2 wout bout xb rc mc nbc fc (ix3 bl a o)
      = outRow (fun a' f => ∑ i : Fin 128, xb (ix3 bl a' i) * win (ix2 i f))
          (fun n => rc (ix3 bl a n)) (fun n => mc (ix3 bl a n)) (fun n => nbc (ix3 bl a n)) (fun n g => fc (ix4 bl a n g))
          (fun g h => wf1 (ix2 g h)) (fun h => bf1 (ix1 h)) (fun h f => wf2 (ix2 h f)) (fun f => bf2 (ix1 f))
          (fun f o' => wout (ix2 f o')) (fun o' => bout (ix1 o')) o := by
  unfold chunkV
  rw [outV_apply]
  unfold outRow
  refine congrArg ssp (congrArg (· + bout (ix1 o)) (Finset.sum_congr rfl fun f _ => ?_))
  show (∑ n : Fin 64, _) * wout (ix2 f o) = _
  refine congrArg (· * wout (ix2 f o)) (Finset.sum_congr rfl fun n _ => ?_)
  show gatherV (onehotV k0_pay6 nbc) (k0_pay5 (F := Ideal) win xb) (ix4 bl a n f)
      * (filtV (k0_pay3 (F := Ideal) wf2) bf2 (k0_pay7 (F := Ideal) wf1 bf1 fc) (ix4 bl a n f) * wgtV (F := Ideal) rc mc (ix4 bl a n f)) = _
  rw [gatherV_apply, filtV_apply, wgtV_apply, mul_regroup]
  obtain ⟨h0, h1⟩ := hnb bl a n
  have hpick : (∑ k : Fin 256, onehotV (F := Ideal) k0_pay6 nbc (ix2 (row3 bl a n) k) * k0_pay5 (F := Ideal) win xb (ix2 k f))
      = ∑ i : Fin 128, xb (ix3 bl (nbrIdx (nbc (ix3 bl a n))) i) * win (ix2 i f) := by
    rw [sum_indicator (rowX bl (nbrIdx (nbc (ix3 bl a n)))) (fun k => k0_pay5 (F := Ideal) win xb (ix2 k f))
      (fun k => onehotV (F := Ideal) k0_pay6 nbc (ix2 (row3 bl a n) k))
      (by rw [onehotV_apply, off_apply, (onehot_iff _ h0 h1 bl _).mpr rfl, bit_one])
      (fun k hk => by
        rw [onehotV_apply, off_apply,
          eq_zero_of_ne_one (fun h => hk ((onehot_iff _ h0 h1 bl k).mp h)), bit_zero])]
    exact dense_apply win xb bl _ f
  rw [hpick]
  have hfilt : (∑ h : Fin 128, ssp (k0_pay7 (F := Ideal) wf1 bf1 fc (ix2 (row3 bl a n) h)) * k0_pay3 (F := Ideal) wf2 (ix2 h f)) + bf2 (ix1 f)
      = filt (fun g => fc (ix4 bl a n g)) (fun g h => wf1 (ix2 g h)) (fun h => bf1 (ix1 h)) (fun h f => wf2 (ix2 h f))
          (fun f => bf2 (ix1 f)) f := by
    unfold filt
    refine congrArg (· + bf2 (ix1 f)) (Finset.sum_congr rfl fun h _ => ?_)
    rw [filt1_apply]
    rfl
  rw [hfilt]

end Cert.KernelIdeal.Chunk

end
-- ==== Proof.KBlock.lean ====
/-
  What a grid point leaves in the output block, as one function of the block index; what it writes back; and the
  array after the run.
-/
import proofs.«425382_j84945863180598_3_alg».proof.Proof.Gen.KernelIdeal.Value
import proofs.«425382_j84945863180598_3_alg».proof.Proof.KChunk

set_option maxRecDepth 16384

noncomputable section

namespace Cert.KernelIdeal.Block

open Idealize.ShloMosaic Idealize.ShloMosaic.ValueIdx Idealize.ShloMosaic.TcCoe Idealize.SL.Sem
open Cert.KernelIdeal Cert.KernelIdeal.Gen Cert.KernelIdeal.Chunk Cert.CfConv
open Idealize.ShloMosaic.Pipeline (Dat)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- A load through a rectangle reads, at j, the contents at the index whose coordinates are offset + stride · j's. -/
theorem ld_apply {S : Shape} {Val : EltTy → Type} {e : EltTy} (X : S.Idx → Val e) (r : Rect S) (j : r.shape.Idx) (k : S.Idx)
    (hk : ∀ a, (k a).val = r.off a + r.stride a * (j a).val) : View.ld X r j = X k :=
  congrArg X (funext fun a => Fin.ext (hk a).symm)

/-- The two molecules' block of the output, as one function of the block index. -/
def blockG (x0 : FVec Ideal S2x128x128 .f32) (x1 : FVec Ideal S2x128x64 .f32) (x2 : IVec S2x128x64 32) (x3 : FVec Ideal S2x128x64 .f32)
    (x4 : FVec Ideal S2x128x64x64 .f32) (x5 : FVec Ideal S128x128 .f32) (x6 : FVec Ideal S64x128 .f32) (x7 : FVec Ideal S128 .f32)
    (x8 : FVec Ideal S128x128 .f32) (x9 : FVec Ideal S128 .f32) (x10 : FVec Ideal S128x128 .f32) (x11 : FVec Ideal S128 .f32) :
    S2x128x128.Idx → EReal :=
  fun y => cfconv (B := 2) x0 x1 x2 x3 x4 x5 x6 x7 x8 x9 x10 x11 ⟨(y 0).val, (y 0).isLt⟩ ⟨(y 1).val, (y 1).isLt⟩ ⟨(y 2).val, (y 2).isLt⟩

/-- A chunk whose rows are rows oc … oc + 31 of the block gives those rows of the block's function. -/
theorem chunk_block (x0 : FVec Ideal S2x128x128 .f32) (x1 : FVec Ideal S2x128x64 .f32) (x2 : IVec S2x128x64 32) (x3 : FVec Ideal S2x128x64 .f32)
    (x4 : FVec Ideal S2x128x64x64 .f32) (x5 : FVec Ideal S128x128 .f32) (x6 : FVec Ideal S64x128 .f32) (x7 : FVec Ideal S128 .f32)
    (x8 : FVec Ideal S128x128 .f32) (x9 : FVec Ideal S128 .f32) (x10 : FVec Ideal S128x128 .f32) (x11 : FVec Ideal S128 .f32)
    (hnb : ∀ y, 0 ≤ (x2 y).toInt ∧ (x2 y).toInt < 128) (oc : Nat) (hoc : oc + 32 ≤ 128)
    (rc mc : FVec Ideal S2x32x64 .f32) (nbc : IVec S2x32x64 32) (fc : FVec Ideal S2x32x64x64 .f32)
    (hr : ∀ (bl : Fin 2) (a : Fin 32) (n : Fin 64), rc (ix3 bl a n) = x1 (ix3 bl (⟨oc + a.val, by have := a.isLt; omega⟩ : Fin 128) n))
    (hm : ∀ (bl : Fin 2) (a : Fin 32) (n : Fin 64), mc (ix3 bl a n) = x3 (ix3 bl (⟨oc + a.val, by have := a.isLt; omega⟩ : Fin 128) n))
    (hn : ∀ (bl : Fin 2) (a : Fin 32) (n : Fin 64), nbc (ix3 bl a n) = x2 (ix3 bl (⟨oc + a.val, by have := a.isLt; omega⟩ : Fin 128) n))
    (hf : ∀ (bl : Fin 2) (a : Fin 32) (n g : Fin 64), fc (ix4 bl a n g) = x4 (ix4 bl (⟨oc + a.val, by have := a.isLt; omega⟩ : Fin 128) n g))
    (bl : Fin 2) (a : Fin 32) (o : Fin 128) :
    chunkV (F := Ideal) x5 x6 x7 x8 x9 x10 x11 x0 rc mc nbc fc (ix3 bl a o)
      = cfconv (B := 2) x0 x1 x2 x3 x4 x5 x6 x7 x8 x9 x10 x11 bl (⟨oc + a.val, by have := a.isLt; omega⟩ : Fin 128) o := by
  rw [chunkV_apply x5 x6 x7 x8 x9 x10 x11 x0 rc mc nbc fc (fun bl a n => by rw [hn]; exact hnb _)]
  unfold cfconv
  simp only [hr, hm, hn, hf]

/-- A load of rows oc … oc + 31 (all molecules, all columns) of a [2, 128, n] block reads row oc + a at a. -/
theorem ld3_rows {Val : EltTy → Type} {e : EltTy} {n1 : Nat} (X : (⟨3, ![2, 128, n1]⟩ : Shape).Idx → Val e) (oc : Nat)
    (inb : ∀ a, (![0, oc, 0] : Fin 3 → Nat) a + (![2, 32, n1] : Fin 3 → Nat) a ≤ (⟨3, ![2, 128, n1]⟩ : Shape).size a)
    (hoc : oc + 32 ≤ 128) (bl : Fin 2) (a : Fin 32) (n : Fin n1) :
    View.ld X (Rect.unit (s := ⟨3, ![2, 128, n1]⟩) ![0, oc, 0] ![2, 32, n1] inb) (ix3 bl a n)
      = X (ix3 bl (⟨oc + a.val, by have := a.isLt; omega⟩ : Fin 128) n) :=
  ld_apply X _ _ _ (fun d => by
    match d with
    | ⟨0, _⟩ => show bl.val = 0 + 1 * bl.val; omega
    | ⟨1, _⟩ => show oc + a.val = oc + 1 * a.val; omega
    | ⟨2, _⟩ => show n.val = 0 + 1 * n.val; omega)

/-- The same for a [2, 128, 64, 64] block. -/
theorem ld4_rows {Val : EltTy → Type} {e : EltTy} (X : (⟨4, ![2, 128, 64, 64]⟩ : Shape).Idx → Val e) (oc : Nat)
    (inb : ∀ a, (![0, oc, 0, 0] : Fin 4 → Nat) a + (![2, 32, 64, 64] : Fin 4 → Nat) a ≤ (⟨4, ![2, 128, 64, 64]⟩ : Shape).size a)
    (hoc : oc + 32 ≤ 128) (bl : Fin 2) (a : Fin 32) (n g : Fin 64) :
    View.ld X (Rect.unit (s := ⟨4, ![2, 128, 64, 64]⟩) ![0, oc, 0, 0] ![2, 32, 64, 64] inb) (ix4 bl a n g)
      = X (ix4 bl (⟨oc + a.val, by have := a.isLt; omega⟩ : Fin 128) n g) :=
  ld_apply X _ _ _ (fun d => by
    match d with
    | ⟨0, _⟩ => show bl.val = 0 + 1 * bl.val; omega
    | ⟨1, _⟩ => show oc + a.val = oc + 1 * a.val; omega
    | ⟨2, _⟩ => show n.val = 0 + 1 * n.val; omega
    | ⟨3, _⟩ => show g.val = 0 + 1 * g.val; omega)

/-- A store of rows oc … oc + 31 of the [2, 128, 128] block puts its row a at row oc + a. -/
theorem emb3_rows (oc : Nat)
    (inb : ∀ a, (![0, oc, 0] : Fin 3 → Nat) a + (![2, 32, 128] : Fin 3 → Nat) a ≤ (⟨3, ![2, 128, 128]⟩ : Shape).size a)
    (hoc : oc + 32 ≤ 128) (bl : Fin 2) (a : Fin 32) (o : Fin 128) :
    (Rect.unit (s := ⟨3, ![2, 128, 128]⟩) ![0, oc, 0] ![2, 32, 128] inb).emb (ix3 bl a o)
      = ix3 bl (⟨oc + a.val, by have := a.isLt; omega⟩ : Fin 128) o :=
  funext fun d => Fin.ext (by
    rw [Rect.emb_apply]
    match d with
    | ⟨0, _⟩ => show 0 + 1 * bl.val = bl.val; omega
    | ⟨1, _⟩ => show oc + 1 * a.val = oc + a.val; omega
    | ⟨2, _⟩ => show 0 + 1 * o.val = o.val; omega)

/-- WHAT THE BODY LEAVES IN THE OUTPUT BLOCK: with the block's neighbour words in 0 … 127, the four stores (rows 0–31,
    32–63, 64–95, 96–127 of both molecules) are the pieces of the block's one function, each chunk the same operations
    on its own rows. -/
theorem out0_12_eq (x0 : FVec Ideal S2x128x128 .f32) (x1 : FVec Ideal S2x128x64 .f32) (x2 : IVec S2x128x64 32) (x3 : FVec Ideal S2x128x64 .f32)
    (x4 : FVec Ideal S2x128x64x64 .f32) (x5 : FVec Ideal S128x128 .f32) (x6 : FVec Ideal S64x128 .f32) (x7 : FVec Ideal S128 .f32)
    (x8 : FVec Ideal S128x128 .f32) (x9 : FVec Ideal S128 .f32) (x10 : FVec Ideal S128x128 .f32) (x11 : FVec Ideal S128 .f32)
    (hnb : ∀ y, 0 ≤ (x2 y).toInt ∧ (x2 y).toInt < 128) :
    out0_12 (F := Ideal) x0 x1 x2 x3 x4 x5 x6 x7 x8 x9 x10 x11 = blockG x0 x1 x2 x3 x4 x5 x6 x7 x8 x9 x10 x11 := by
  funext y
  unfold out0_12
  refine View.canon_apply_of_pieces (Val := Elt Ideal) (e := .f32) (blockG x0 x1 x2 x3 x4 x5 x6 x7 x8 x9 x10 x11) _ ?_ y (cover0_12 _ _ _ _ y)
  intro p hp x
  simp only [List.mem_cons, List.not_mem_nil, or_false] at hp
  rcases hp with rfl | rfl | rfl | rfl
  · obtain ⟨bl, a, o, rfl⟩ : ∃ (bl : Fin 2) (a : Fin 32) (o : Fin 128), x = ix3 bl a o := ⟨x 0, x 1, x 2, eq_ix3 x⟩
    rw [show r0_15.emb (ix3 bl a o) = _ from emb3_rows 96 _ (by omega) bl a o]
    show chunkV (F := Ideal) (View.ld x5 r0_0) (View.ld x6 r0_1) (View.ld x7 r0_2) (View.ld x8 r0_0) (View.ld x9 r0_2)
        (View.ld x10 r0_0) (View.ld x11 r0_2) (View.ld x0 r0_3) (View.ld x1 r0_13) (View.ld x3 r0_13) (View.ld x2 r0_13)
        (View.ld x4 r0_14) (ix3 bl a o)
      = cfconv (B := 2) x0 x1 x2 x3 x4 x5 x6 x7 x8 x9 x10 x11 bl (⟨96 + a.val, by have := a.isLt; omega⟩ : Fin 128) o
    simp only [View.ld_unit_zero (S := S128x128) hz2, View.ld_unit_zero (S := S64x128) hz2, View.ld_unit_zero (S := S128) hz1,
      View.ld_unit_zero (S := S2x128x128) hz3]
    exact chunk_block x0 x1 x2 x3 x4 x5 x6 x7 x8 x9 x10 x11 hnb 96 (by omega) _ _ _ _
      (fun bl a n => ld3_rows (Val := Elt Ideal) (e := .f32) x1 96 _ (by omega) bl a n) (fun bl a n => ld3_rows (Val := Elt Ideal) (e := .f32) x3 96 _ (by omega) bl a n)
      (fun bl a n => ld3_rows (Val := Elt Ideal) (e := .i32) x2 96 _ (by omega) bl a n) (fun bl a n g => ld4_rows (Val := Elt Ideal) (e := .f32) x4 96 _ (by omega) bl a n g) bl a o
  · obtain ⟨bl, a, o, rfl⟩ : ∃ (bl : Fin 2) (a : Fin 32) (o : Fin 128), x = ix3 bl a o := ⟨x 0, x 1, x 2, eq_ix3 x⟩
    rw [show r0_12.emb (ix3 bl a o) = _ from emb3_rows 64 _ (by omega) bl a o]
    show chunkV (F := Ideal) (View.ld x5 r0_0) (View.ld x6 r0_1) (View.ld x7 r0_2) (View.ld x8 r0_0) (View.ld x9 r0_2)
        (View.ld x10 r0_0) (View.ld x11 r0_2) (View.ld x0 r0_3) (View.ld x1 r0_10) (View.ld x3 r0_10) (View.ld x2 r0_10)
        (View.ld x4 r0_11) (ix3 bl a o)
      = cfconv (B := 2) x0 x1 x2 x3 x4 x5 x6 x7 x8 x9 x10 x11 bl (⟨64 + a.val, by have := a.isLt; omega⟩ : Fin 128) o
    simp only [View.ld_unit_zero (S := S128x128) hz2, View.ld_unit_zero (S := S64x128) hz2, View.ld_unit_zero (S := S128) hz1,
      View.ld_unit_zero (S := S2x128x128) hz3]
    exact chunk_block x0 x1 x2 x3 x4 x5 x6 x7 x8 x9 x10 x11 hnb 64 (by omega) _ _ _ _
      (fun bl a n => ld3_rows (Val := Elt Ideal) (e := .f32) x1 64 _ (by omega) bl a n) (fun bl a n => ld3_rows (Val := Elt Ideal) (e := .f32) x3 64 _ (by omega) bl a n)
      (fun bl a n => ld3_rows (Val := Elt Ideal) (e := .i32) x2 64 _ (by omega) bl a n) (fun bl a n g => ld4_rows (Val := Elt Ideal) (e := .f32) x4 64 _ (by omega) bl a n g) bl a o
  · obtain ⟨bl, a, o, rfl⟩ : ∃ (bl : Fin 2) (a : Fin 32) (o : Fin 128), x = ix3 bl a o := ⟨x 0, x 1, x 2, eq_ix3 x⟩
    rw [show r0_9.emb (ix3 bl a o) = _ from emb3_rows 32 _ (by omega) bl a o]
    show chunkV (F := Ideal) (View.ld x5 r0_0) (View.ld x6 r0_1) (View.ld x7 r0_2) (View.ld x8 r0_0) (View.ld x9 r0_2)
        (View.ld x10 r0_0) (View.ld x11 r0_2) (View.ld x0 r0_3) (View.ld x1 r0_7) (View.ld x3 r0_7) (View.ld x2 r0_7)
        (View.ld x4 r0_8) (ix3 bl a o)
      = cfconv (B := 2) x0 x1 x2 x3 x4 x5 x6 x7 x8 x9 x10 x11 bl (⟨32 + a.val, by have := a.isLt; omega⟩ : Fin 128) o
    simp only [View.ld_unit_zero (S := S128x128) hz2, View.ld_unit_zero (S := S64x128) hz2, View.ld_unit_zero (S := S128) hz1,
      View.ld_unit_zero (S := S2x128x128) hz3]
    exact chunk_block x0 x1 x2 x3 x4 x5 x6 x7 x8 x9 x10 x11 hnb 32 (by omega) _ _ _ _
      (fun bl a n => ld3_rows (Val := Elt Ideal) (e := .f32) x1 32 _ (by omega) bl a n) (fun bl a n => ld3_rows (Val := Elt Ideal) (e := .f32) x3 32 _ (by omega) bl a n)
      (fun bl a n => ld3_rows (Val := Elt Ideal) (e := .i32) x2 32 _ (by omega) bl a n) (fun bl a n g => ld4_rows (Val := Elt Ideal) (e := .f32) x4 32 _ (by omega) bl a n g) bl a o
  · obtain ⟨bl, a, o, rfl⟩ : ∃ (bl : Fin 2) (a : Fin 32) (o : Fin 128), x = ix3 bl a o := ⟨x 0, x 1, x 2, eq_ix3 x⟩
    rw [show r0_6.emb (ix3 bl a o) = _ from emb3_rows 0 _ (by omega) bl a o]
    show chunkV (F := Ideal) (View.ld x5 r0_0) (View.ld x6 r0_1) (View.ld x7 r0_2) (View.ld x8 r0_0) (View.ld x9 r0_2)
        (View.ld x10 r0_0) (View.ld x11 r0_2) (View.ld x0 r0_3) (View.ld x1 r0_4) (View.ld x3 r0_4) (View.ld x2 r0_4)
        (View.ld x4 r0_5) (ix3 bl a o)
      = cfconv (B := 2) x0 x1 x2 x3 x4 x5 x6 x7 x8 x9 x10 x11 bl (⟨0 + a.val, by have := a.isLt; omega⟩ : Fin 128) o
    simp only [View.ld_unit_zero (S := S128x128) hz2, View.ld_unit_zero (S := S64x128) hz2, View.ld_unit_zero (S := S128) hz1,
      View.ld_unit_zero (S := S2x128x128) hz3]
    exact chunk_block x0 x1 x2 x3 x4 x5 x6 x7 x8 x9 x10 x11 hnb 0 (by omega) _ _ _ _
      (fun bl a n => ld3_rows (Val := Elt Ideal) (e := .f32) x1 0 _ (by omega) bl a n) (fun bl a n => ld3_rows (Val := Elt Ideal) (e := .f32) x3 0 _ (by omega) bl a n)
      (fun bl a n => ld3_rows (Val := Elt Ideal) (e := .i32) x2 0 _ (by omega) bl a n) (fun bl a n g => ld4_rows (Val := Elt Ideal) (e := .f32) x4 0 _ (by omega) bl a n g) bl a o

/-! ## From blocks to the array -/

variable (m : (ℓ : Loc nD τ sig) → Buf (Elt Ideal) ℓ) (ρ : Dev nD → PrngReg)

/-- The printed index maps, decided over the sixteen grid points: the five per-molecule windows and the output move
    together, two molecules a point; the seven weight windows stay on their whole arrays. -/
theorem idx_facts : ∀ t : Fin cfg0.N,
    (win0_12.index t (0 : Fin 3) = t.val ∧ win0_12.index t (1 : Fin 3) = 0 ∧ win0_12.index t (2 : Fin 3) = 0)
    ∧ (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 4) = t.val ∧ win0_4.index t (1 : Fin 4) = 0 ∧ win0_4.index t (2 : Fin 4) = 0 ∧ win0_4.index t (3 : Fin 4) = 0)
    ∧ (win0_5.index t (0 : Fin 2) = 0 ∧ win0_5.index t (1 : Fin 2) = 0)
    ∧ (win0_6.index t (0 : Fin 2) = 0 ∧ win0_6.index t (1 : Fin 2) = 0)
    ∧ win0_7.index t (0 : Fin 1) = 0
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0 :=
  (by decide +kernel : ∀ t : Fin grid0.N, _)

/-- The molecule that grid point t's block holds at position bl: 2 t + bl. -/
abbrev mol (t : Fin cfg0.N) (bl : Fin 2) : Fin 32 :=
  ⟨2 * t.val + bl.val, by have := t.isLt; have hN : cfg0.N = 16 := N_0; have := bl.isLt; omega⟩

/-- Block entry (bl, a, o) of the output window at point t is array entry (2 t + bl, a, o). -/
theorem emb12 (t : Fin cfg0.N) (bl : Fin 2) (a o : Fin 128) :
    ((cfg0.win 12).blk t).view.emb (ix3 bl a o) = ix3 (mol t bl) a o := by
  obtain ⟨⟨e0, e1, e2⟩, -⟩ := idx_facts t
  funext d; apply Fin.ext
  match d with
  | ⟨0, _⟩ => show win0_12.index t (0 : Fin 3) * 2 + 1 * bl.val = 2 * t.val + bl.val; omega
  | ⟨1, _⟩ => show win0_12.index t (1 : Fin 3) * 128 + 1 * a.val = a.val; omega
  | ⟨2, _⟩ => show win0_12.index t (2 : Fin 3) * 128 + 1 * o.val = o.val; omega

/-- The features' block at point t is molecules 2 t and 2 t + 1 of the features. -/
theorem read0 (c : Dev nD) (t : Fin cfg0.N) (bl : Fin 2) (a i : Fin 128) :
    (iblk m c 0 t : S2x128x128.Idx → EReal) (ix3 bl a i) = (V m c main_arg0 : S32x128x128.Idx → EReal) (ix3 (mol t bl) a i) := by
  obtain ⟨-, ⟨e0, e1, e2⟩, -⟩ := idx_facts t
  show (V m c main_arg0 : S32x128x128.Idx → EReal) (((cfg0.win 0).blk t).view.emb (ix3 bl a i)) = _
  refine congrArg _ (funext fun d => Fin.ext ?_)
  match d with
  | ⟨0, _⟩ => show win0_0.index t (0 : Fin 3) * 2 + 1 * bl.val = 2 * t.val + bl.val; omega
  | ⟨1, _⟩ => show win0_0.index t (1 : Fin 3) * 128 + 1 * a.val = a.val; omega
  | ⟨2, _⟩ => show win0_0.index t (2 : Fin 3) * 128 + 1 * i.val = i.val; omega

/-- Likewise the distances', -/
theorem read1 (c : Dev nD) (t : Fin cfg0.N) (bl : Fin 2) (a : Fin 128) (n : Fin 64) :
    (iblk m c 1 t : S2x128x64.Idx → EReal) (ix3 bl a n) = (V m c main_arg1 : S32x128x64.Idx → EReal) (ix3 (mol t bl) a n) := by
  obtain ⟨-, -, ⟨e0, e1, e2⟩, -⟩ := idx_facts t
  show (V m c main_arg1 : S32x128x64.Idx → EReal) (((cfg0.win 1).blk t).view.emb (ix3 bl a n)) = _
  refine congrArg _ (funext fun d => Fin.ext ?_)
  match d with
  | ⟨0, _⟩ => show win0_1.index t (0 : Fin 3) * 2 + 1 * bl.val = 2 * t.val + bl.val; omega
  | ⟨1, _⟩ => show win0_1.index t (1 : Fin 3) * 128 + 1 * a.val = a.val; omega
  | ⟨2, _⟩ => show win0_1.index t (2 : Fin 3) * 64 + 1 * n.val = n.val; omega

/-- the neighbours', -/
theorem read2 (c : Dev nD) (t : Fin cfg0.N) (bl : Fin 2) (a : Fin 128) (n : Fin 64) :
    (iblk m c 2 t : S2x128x64.Idx → BitVec 32) (ix3 bl a n) = (V m c main_arg2 : S32x128x64.Idx → BitVec 32) (ix3 (mol t bl) a n) := by
  obtain ⟨-, -, -, ⟨e0, e1, e2⟩, -⟩ := idx_facts t
  show (V m c main_arg2 : S32x128x64.Idx → BitVec 32) (((cfg0.win 2).blk t).view.emb (ix3 bl a n)) = _
  refine congrArg _ (funext fun d => Fin.ext ?_)
  match d with
  | ⟨0, _⟩ => show win0_2.index t (0 : Fin 3) * 2 + 1 * bl.val = 2 * t.val + bl.val; omega
  | ⟨1, _⟩ => show win0_2.index t (1 : Fin 3) * 128 + 1 * a.val = a.val; omega
  | ⟨2, _⟩ => show win0_2.index t (2 : Fin 3) * 64 + 1 * n.val = n.val; omega

/-- the mask's, -/
theorem read3 (c : Dev nD) (t : Fin cfg0.N) (bl : Fin 2) (a : Fin 128) (n : Fin 64) :
    (iblk m c 3 t : S2x128x64.Idx → EReal) (ix3 bl a n) = (V m c main_arg3 : S32x128x64.Idx → EReal) (ix3 (mol t bl) a n) := by
  obtain ⟨-, -, -, -, ⟨e0, e1, e2⟩, -⟩ := idx_facts t
  show (V m c main_arg3 : S32x128x64.Idx → EReal) (((cfg0.win 3).blk t).view.emb (ix3 bl a n)) = _
  refine congrArg _ (funext fun d => Fin.ext ?_)
  match d with
  | ⟨0, _⟩ => show win0_3.index t (0 : Fin 3) * 2 + 1 * bl.val = 2 * t.val + bl.val; omega
  | ⟨1, _⟩ => show win0_3.index t (1 : Fin 3) * 128 + 1 * a.val = a.val; omega
  | ⟨2, _⟩ => show win0_3.index t (2 : Fin 3) * 64 + 1 * n.val = n.val; omega

/-- and the expanded distances'. -/
theorem read4 (c : Dev nD) (t : Fin cfg0.N) (bl : Fin 2) (a : Fin 128) (n g : Fin 64) :
    (iblk m c 4 t : S2x128x64x64.Idx → EReal) (ix4 bl a n g) = (V m c main_arg4 : S32x128x64x64.Idx → EReal) (ix4 (mol t bl) a n g) := by
  obtain ⟨-, -, -, -, -, ⟨e0, e1, e2, e3⟩, -⟩ := idx_facts t
  show (V m c main_arg4 : S32x128x64x64.Idx → EReal) (((cfg0.win 4).blk t).view.emb (ix4 bl a n g)) = _
  refine congrArg _ (funext fun d => Fin.ext ?_)
  match d with
  | ⟨0, _⟩ => show win0_4.index t (0 : Fin 4) * 2 + 1 * bl.val = 2 * t.val + bl.val; omega
  | ⟨1, _⟩ => show win0_4.index t (1 : Fin 4) * 128 + 1 * a.val = a.val; omega
  | ⟨2, _⟩ => show win0_4.index t (2 : Fin 4) * 64 + 1 * n.val = n.val; omega
  | ⟨3, _⟩ => show win0_4.index t (3 : Fin 4) * 64 + 1 * g.val = g.val; omega

/-- The weight windows' blocks are their whole arrays at every point. -/
theorem read5 (c : Dev nD) (t : Fin cfg0.N) : (iblk m c 5 t : S128x128.Idx → EReal) = (V m c main_arg5 : S128x128.Idx → EReal) := by
  obtain ⟨-, -, -, -, -, -, ⟨e0, e1⟩, -⟩ := idx_facts t
  funext y
  show (V m c main_arg5 : S128x128.Idx → EReal) (((cfg0.win 5).blk t).view.emb y) = _
  refine congrArg _ (funext fun d => Fin.ext ?_)
  match d with
  | ⟨0, _⟩ => show win0_5.index t (0 : Fin 2) * 128 + 1 * (y 0).val = (y 0).val; omega
  | ⟨1, _⟩ => show win0_5.index t (1 : Fin 2) * 128 + 1 * (y 1).val = (y 1).val; omega

theorem read6 (c : Dev nD) (t : Fin cfg0.N) : (iblk m c 6 t : S64x128.Idx → EReal) = (V m c main_arg6 : S64x128.Idx → EReal) := by
  obtain ⟨-, -, -, -, -, -, -, ⟨e0, e1⟩, -⟩ := idx_facts t
  funext y
  show (V m c main_arg6 : S64x128.Idx → EReal) (((cfg0.win 6).blk t).view.emb y) = _
  refine congrArg _ (funext fun d => Fin.ext ?_)
  match d with
  | ⟨0, _⟩ => show win0_6.index t (0 : Fin 2) * 64 + 1 * (y 0).val = (y 0).val; omega
  | ⟨1, _⟩ => show win0_6.index t (1 : Fin 2) * 128 + 1 * (y 1).val = (y 1).val; omega

theorem read7 (c : Dev nD) (t : Fin cfg0.N) : (iblk m c 7 t : S128.Idx → EReal) = (V m c main_arg7 : S128.Idx → EReal) := by
  obtain ⟨-, -, -, -, -, -, -, -, e0, -⟩ := idx_facts t
  funext y
  show (V m c main_arg7 : S128.Idx → EReal) (((cfg0.win 7).blk t).view.emb y) = _
  refine congrArg _ (funext fun d => Fin.ext ?_)
  match d with
  | ⟨0, _⟩ => show win0_7.index t (0 : Fin 1) * 128 + 1 * (y 0).val = (y 0).val; omega

theorem read8 (c : Dev nD) (t : Fin cfg0.N) : (iblk m c 8 t : S128x128.Idx → EReal) = (V m c main_arg8 : S128x128.Idx → EReal) := by
  obtain ⟨-, -, -, -, -, -, -, -, -, ⟨e0, e1⟩, -⟩ := idx_facts t
  funext y
  show (V m c main_arg8 : S128x128.Idx → EReal) (((cfg0.win 8).blk t).view.emb y) = _
  refine congrArg _ (funext fun d => Fin.ext ?_)
  match d with
  | ⟨0, _⟩ => show win0_8.index t (0 : Fin 2) * 128 + 1 * (y 0).val = (y 0).val; omega
  | ⟨1, _⟩ => show win0_8.index t (1 : Fin 2) * 128 + 1 * (y 1).val = (y 1).val; omega

theorem read9 (c : Dev nD) (t : Fin cfg0.N) : (iblk m c 9 t : S128.Idx → EReal) = (V m c main_arg9 : S128.Idx → EReal) := by
  obtain ⟨-, -, -, -, -, -, -, -, -, -, e0, -⟩ := idx_facts t
  funext y
  show (V m c main_arg9 : S128.Idx → EReal) (((cfg0.win 9).blk t).view.emb y) = _
  refine congrArg _ (funext fun d => Fin.ext ?_)
  match d with
  | ⟨0, _⟩ => show win0_9.index t (0 : Fin 1) * 128 + 1 * (y 0).val = (y 0).val; omega

theorem read10 (c : Dev nD) (t : Fin cfg0.N) : (iblk m c 10 t : S128x128.Idx → EReal) = (V m c main_arg10 : S128x128.Idx → EReal) := by
  obtain ⟨-, -, -, -, -, -, -, -, -, -, -, ⟨e0, e1⟩, -⟩ := idx_facts t
  funext y
  show (V m c main_arg10 : S128x128.Idx → EReal) (((cfg0.win 10).blk t).view.emb y) = _
  refine congrArg _ (funext fun d => Fin.ext ?_)
  match d with
  | ⟨0, _⟩ => show win0_10.index t (0 : Fin 2) * 128 + 1 * (y 0).val = (y 0).val; omega
  | ⟨1, _⟩ => show win0_10.index t (1 : Fin 2) * 128 + 1 * (y 1).val = (y 1).val; omega

theorem read11 (c : Dev nD) (t : Fin cfg0.N) : (iblk m c 11 t : S128.Idx → EReal) = (V m c main_arg11 : S128.Idx → EReal) := by
  obtain ⟨-, -, -, -, -, -, -, -, -, -, -, -, e0⟩ := idx_facts t
  funext y
  show (V m c main_arg11 : S128.Idx → EReal) (((cfg0.win 11).blk t).view.emb y) = _
  refine congrArg _ (funext fun d => Fin.ext ?_)
  match d with
  | ⟨0, _⟩ => show win0_11.index t (0 : Fin 1) * 128 + 1 * (y 0).val = (y 0).val; omega

/-- The result array as the one function of the argument arrays as the region finds them. -/
abbrev result (c : Dev nD) : S32x128x128.Idx → EReal :=
  cfconvArr (V m c main_arg0) (V m c main_arg1) (V m c main_arg2) (V m c main_arg3) (V m c main_arg4) (V m c main_arg5)
    (V m c main_arg6) (V m c main_arg7) (V m c main_arg8) (V m c main_arg9) (V m c main_arg10) (V m c main_arg11)

/-- Every neighbour word of the neighbours array is an atom index. -/
def NbInRange (c : Dev nD) : Prop :=
  ∀ i : S32x128x64.Idx, 0 ≤ ((V m c main_arg2 : S32x128x64.Idx → BitVec 32) i).toInt
    ∧ ((V m c main_arg2 : S32x128x64.Idx → BitVec 32) i).toInt < 128

/-- WHAT POINT t WRITES BACK is block t of the result: molecules 2 t and 2 t + 1, each from its own rows of the argument
    arrays. -/
theorem flushed12_eq (c : Dev nD) (hnb : NbInRange m c) (t : Fin cfg0.N) :
    (dats m 0 c).flushed 12 t = ((cfg0.win 12).blk t).view.read (Elt Ideal) (result m c) := by
  rw [Value.flushed12]
  have hb : ∀ y : S2x128x64.Idx, 0 ≤ ((iblk m c 2 t : S2x128x64.Idx → BitVec 32) y).toInt
      ∧ ((iblk m c 2 t : S2x128x64.Idx → BitVec 32) y).toInt < 128 := fun y => by
    obtain ⟨bl, a, n, rfl⟩ : ∃ (bl : Fin 2) (a : Fin 128) (n : Fin 64), y = ix3 bl a n := ⟨y 0, y 1, y 2, eq_ix3 y⟩
    rw [read2]; exact hnb _
  have h := out0_12_eq (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) hb
  funext j
  obtain ⟨bl, a, o, rfl⟩ : ∃ (bl : Fin 2) (a o : Fin 128), j = ix3 bl a o := ⟨j 0, j 1, j 2, eq_ix3 j⟩
  show out0_12 (F := Ideal) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (ix3 bl a o)
    = result m c (((cfg0.win 12).blk t).view.emb (ix3 bl a o))
  rw [emb12, congrFun h (ix3 bl a o)]
  show cfconv (B := 2) (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) bl a o
    = cfconv (B := 32) (V m c main_arg0) (V m c main_arg1) (V m c main_arg2) (V m c main_arg3) (V m c main_arg4) (V m c main_arg5)
      (V m c main_arg6) (V m c main_arg7) (V m c main_arg8) (V m c main_arg9) (V m c main_arg10) (V m c main_arg11) (mol t bl) a o
  rw [read5 m c t, read6 m c t, read7 m c t, read8 m c t, read9 m c t, read10 m c t, read11 m c t]
  exact cfconv_congr _ _ _ _ _ _ _ _ _ _ _ _ _ _ _ _ _ (mol t bl) bl a (fun a' i => read0 m c t bl a' i)
    (fun n => read1 m c t bl a n) (fun n => read2 m c t bl a n) (fun n => read3 m c t bl a n)
    (fun n g => read4 m c t bl a n g) o

/-- An index of the array is in point t's block iff each coordinate is in the block's range on its axis. -/
theorem mem_blk12 (t : Fin cfg0.N) (i : S32x128x128.Idx) :
    i ∈ ((cfg0.win 12).blk t).view.set ↔ ∀ a : Fin 3, win0_12.index t a * S2x128x128.size a ≤ (i a).val
      ∧ (i a).val < win0_12.index t a * S2x128x128.size a + S2x128x128.size a := by
  show i ∈ ((View.whole main_v0).slice (win0_12.rect t)).set ↔ _
  rw [View.set_slice_whole, Rect.mem_set_unit]
  exact Iff.rfl

/-- Every entry of the result is in the block of the point that holds its molecule: point (molecule / 2). -/
theorem cover12 (i : S32x128x128.Idx) :
    ∃ t : Fin cfg0.N, (cfg0.win 12).flush t = true ∧ i ∈ ((cfg0.win 12).blk t).view.set := by
  have hi0 : (i 0).val < 32 := (i 0).isLt
  have hi1 : (i 1).val < 128 := (i 1).isLt
  have hi2 : (i 2).val < 128 := (i 2).isLt
  have hN : cfg0.N = 16 := N_0
  obtain ⟨t, ht⟩ : ∃ t : Fin cfg0.N, t.val = (i 0).val / 2 := ⟨⟨(i 0).val / 2, by omega⟩, rfl⟩
  obtain ⟨⟨e0, e1, e2⟩, -⟩ := idx_facts t
  refine ⟨t, flush0_12 t, ?_⟩
  rw [mem_blk12]
  intro a
  match a with
  | ⟨0, _⟩ =>
    show win0_12.index t (0 : Fin 3) * 2 ≤ (i 0).val ∧ (i 0).val < win0_12.index t (0 : Fin 3) * 2 + 2
    omega
  | ⟨1, _⟩ =>
    show win0_12.index t (1 : Fin 3) * 128 ≤ (i 1).val ∧ (i 1).val < win0_12.index t (1 : Fin 3) * 128 + 128
    omega
  | ⟨2, _⟩ =>
    show win0_12.index t (2 : Fin 3) * 128 ≤ (i 2).val ∧ (i 2).val < win0_12.index t (2 : Fin 3) * 128 + 128
    omega

/-- THE ARRAY after the run is the result function of the argument arrays. -/
theorem final12 (c : Dev nD) (hnb : NbInRange m c) : (dats m 0 c).arrAt 12 cfg0.N = result m c :=
  (dats m 0 c).arrAt_eq_of_cover 12 (result m c) (fun t _ => flushed12_eq m c hnb t) cover12

/-- The kernel's run: every weakly fair execution ends with the result array at the convolution of the argument
    arrays and the arguments unchanged, when the neighbour words are atom indices. -/
theorem run (hnb : ∀ c, NbInRange m c) :
    θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final12 m c (hnb c)), (h c).2⟩) (Value.run_blocks m ρ)

end Cert.KernelIdeal.Block

end
-- ==== Proof.RefValue.lean ====
/-
  The reference's result read at an entry: the convolution of the argument arrays.
-/
import proofs.«425382_j84945863180598_3_alg».proof.Proof.RefRead
import proofs.«425382_j84945863180598_3_alg».proof.Proof.Spec
import Idealize.ShloMosaic.PureOps.Reduce
import Idealize.ShloMosaic.Lib.StableHlo.Predicate

set_option maxRecDepth 16384

noncomputable section

namespace Cert.ReferenceIdeal.RefValue

open Idealize.ShloMosaic Idealize.ShloMosaic.ValueIdx Cert.ReferenceIdeal Cert.ReferenceIdeal.Gen Cert.ReferenceIdeal.ReadP Cert.CfConv
open Cert.ReferenceIdeal.Facts

variable [Facts]

variable (x0 : FVec Ideal S32x128x128 .f32) (x1 : FVec Ideal S32x128x64 .f32) (x2 : IVec S32x128x64 32) (x3 : FVec Ideal S32x128x64 .f32)
  (x4 : FVec Ideal S32x128x64x64 .f32) (x5 : FVec Ideal S128x128 .f32) (x6 : FVec Ideal S64x128 .f32) (x7 : FVec Ideal S128 .f32)
  (x8 : FVec Ideal S128x128 .f32) (x9 : FVec Ideal S128 .f32) (x10 : FVec Ideal S128x128 .f32) (x11 : FVec Ideal S128 .f32)

/-- The filter network's first layer before its activation at (b, a, n, h). -/
theorem v3_apply (b : Fin 32) (a : Fin 128) (n : Fin 64) (h : Fin 128) :
    val_main_v3 (F := Ideal) x4 x6 x7 (ix4 b a n h) = (∑ g : Fin 64, x4 (ix4 b a n g) * x6 (ix2 g h)) + x7 (ix1 h) := by
  show val_main_v0 (F := Ideal) x4 x6 (ix4 b a n h) + val_main_v2 (F := Ideal) x7 (ix4 b a n h) = _
  rw [val_main_v0_apply, val_main_v2_apply, val_main_v1_apply]
  have e1 : ∀ g : Fin 64, lidx_main_v0 (ix4 b a n h) g = ix4 b a n g := fun g => funext fun d => Fin.ext (by
    match d with | ⟨0, _⟩ => rfl | ⟨1, _⟩ => rfl | ⟨2, _⟩ => rfl | ⟨3, _⟩ => rfl)
  have e2 : ∀ g : Fin 64, ridx_main_v0 (ix4 b a n h) g = ix2 g h := fun g => funext fun d => Fin.ext (by
    match d with | ⟨0, _⟩ => rfl | ⟨1, _⟩ => rfl)
  have e3 : idx_main_v1 (idx_main_v2 (ix4 b a n h)) = ix1 h := funext fun d => Fin.ext (by
    match d with | ⟨0, _⟩ => rfl)
  simp only [e1, e2, e3]

/-- The reference's softplus minus ln 2 is the shifted softplus of its argument, lane by lane. -/
theorem v6_apply (i : S32x128x64x128.Idx) :
    val_main_v6 (F := Ideal) x4 x6 x7 i = ssp (val_main_v3 (F := Ideal) x4 x6 x7 i) := by
  show Scalar.select
      (Ideal.cmp .une (val_main_v3 (F := Ideal) x4 x6 x7 i - Ideal.ofBits .f32 0x00000000#32)
        (val_main_v3 (F := Ideal) x4 x6 x7 i - Ideal.ofBits .f32 0x00000000#32))
      (val_main_v3 (F := Ideal) x4 x6 x7 i + Ideal.ofBits .f32 0x00000000#32)
      (max (val_main_v3 (F := Ideal) x4 x6 x7 i) (Ideal.ofBits .f32 0x00000000#32)
        + Ideal.log1p (Ideal.exp (-(max (val_main_v3 (F := Ideal) x4 x6 x7 i - Ideal.ofBits .f32 0x00000000#32)
            (-(val_main_v3 (F := Ideal) x4 x6 x7 i - Ideal.ofBits .f32 0x00000000#32))))))
      - Ideal.ofBits .f32 0x3F317218#32 = _
  rw [cmp_une_self, select_zero, Ideal.ofBits_zero_f32]
  rfl

/-- The filter at (b, a, n, f). -/
theorem v10_apply (b : Fin 32) (a : Fin 128) (n : Fin 64) (f : Fin 128) :
    val_main_v10 (F := Ideal) x4 x6 x7 x8 x9 (ix4 b a n f)
      = filt (fun g => x4 (ix4 b a n g)) (fun g h => x6 (ix2 g h)) (fun h => x7 (ix1 h)) (fun h f => x8 (ix2 h f)) (fun f => x9 (ix1 f)) f := by
  show val_main_v7 (F := Ideal) x4 x6 x7 x8 (ix4 b a n f) + val_main_v9 (F := Ideal) x9 (ix4 b a n f) = _
  rw [val_main_v7_apply, val_main_v9_apply, val_main_v8_apply]
  have e1 : ∀ h : Fin 128, lidx_main_v7 (ix4 b a n f) h = ix4 b a n h := fun h => funext fun d => Fin.ext (by
    match d with | ⟨0, _⟩ => rfl | ⟨1, _⟩ => rfl | ⟨2, _⟩ => rfl | ⟨3, _⟩ => rfl)
  have e2 : ∀ h : Fin 128, ridx_main_v7 (ix4 b a n f) h = ix2 h f := fun h => funext fun d => Fin.ext (by
    match d with | ⟨0, _⟩ => rfl | ⟨1, _⟩ => rfl)
  have e3 : idx_main_v8 (idx_main_v9 (ix4 b a n f)) = ix1 f := funext fun d => Fin.ext (by
    match d with | ⟨0, _⟩ => rfl)
  simp only [e1, e2, e3, v6_apply, v3_apply]
  rfl

/-- The cutoff at (b, a, n): the distance scaled by π and divided by 5 is the distance scaled by the folded literal. -/
theorem v23_apply (i : S32x128x64.Idx) : val_main_v23 (F := Ideal) x1 i = cut (x1 i) := by
  show (Ideal.ofBits .f32 0x3F000000#32
        * (Ideal.cos (Ideal.div (x1 i * Ideal.ofBits .f32 0x40490FDB#32) (Ideal.ofBits .f32 0x40A00000#32)) + Ideal.ofBits .f32 0x3F800000#32))
      * bit (Ideal.cmp .olt (x1 i) (Ideal.ofBits .f32 0x40A00000#32)) = _
  rw [scale_eq]
  rfl

/-- The filter times the cutoff at (b, a, n, f). -/
theorem v26_apply (b : Fin 32) (a : Fin 128) (n : Fin 64) (f : Fin 128) :
    val_main_v26 (F := Ideal) x1 x4 x6 x7 x8 x9 (ix4 b a n f)
      = filt (fun g => x4 (ix4 b a n g)) (fun g h => x6 (ix2 g h)) (fun h => x7 (ix1 h)) (fun h f => x8 (ix2 h f)) (fun f => x9 (ix1 f)) f
        * cut (x1 (ix3 b a n)) := by
  show val_main_v10 (F := Ideal) x4 x6 x7 x8 x9 (ix4 b a n f) * val_main_v25 (F := Ideal) x1 (ix4 b a n f) = _
  rw [v10_apply, val_main_v25_apply, val_main_v24_apply, v23_apply]
  have e : idx_main_v24 (idx_main_v25 (ix4 b a n f)) = ix3 b a n := funext fun d => Fin.ext (by
    match d with | ⟨0, _⟩ => rfl | ⟨1, _⟩ => rfl | ⟨2, _⟩ => rfl)
  rw [e]

/-- The dense layer at (b, a, f). -/
theorem v27_apply (b : Fin 32) (a f : Fin 128) :
    val_main_v27 (F := Ideal) x0 x5 (ix3 b a f) = ∑ i : Fin 128, x0 (ix3 b a i) * x5 (ix2 i f) := by
  rw [val_main_v27_apply]
  have e1 : ∀ i : Fin 128, lidx_main_v27 (ix3 b a f) i = ix3 b a i := fun i => funext fun d => Fin.ext (by
    match d with | ⟨0, _⟩ => rfl | ⟨1, _⟩ => rfl | ⟨2, _⟩ => rfl)
  have e2 : ∀ i : Fin 128, ridx_main_v27 (ix3 b a f) i = ix2 i f := fun i => funext fun d => Fin.ext (by
    match d with | ⟨0, _⟩ => rfl | ⟨1, _⟩ => rfl)
  simp only [e1, e2]

/-! ## The gather -/

theorem cmpi_slt_zero (w : BitVec 32) (h : 0 ≤ w.toInt) : IntOp.cmpi .slt w 0#32 = 0#1 := by
  have h0 : (0#32 : BitVec 32).toInt = 0 := by decide
  show BitVec.ofBool (decide (w.toInt < (0#32 : BitVec 32).toInt)) = 0#1
  rw [h0, decide_eq_false (by omega)]; rfl

theorem cmpi_sge_zero (w : BitVec 32) (h : 0 ≤ w.toInt) : IntOp.cmpi .sge w 0#32 = 1#1 := by
  have h0 : (0#32 : BitVec 32).toInt = 0 := by decide
  show BitVec.ofBool (decide ((0#32 : BitVec 32).toInt ≤ w.toInt)) = 1#1
  rw [h0, decide_eq_true (by omega)]; rfl

theorem cmpi_sle_127 (w : BitVec 32) (h : w.toInt < 128) : IntOp.cmpi .sle w 127#32 = 1#1 := by
  have h0 : (127#32 : BitVec 32).toInt = 127 := by decide
  show BitVec.ofBool (decide (w.toInt ≤ (127#32 : BitVec 32).toInt)) = 1#1
  rw [h0, decide_eq_true (by omega)]; rfl

/-- Every neighbour word is an atom index. -/
def NbInRange : Prop := ∀ i : S32x128x64.Idx, 0 ≤ (x2 i).toInt ∧ (x2 i).toInt < 128

/-- The start index the gather reads at k is a word of the neighbours array, -/
theorem v29_word (k : S32x8192x1.Idx) : val_main_v29 (F := Ideal) x2 k = x2 (idx_main_v28 (idx_main_v29 k)) := by
  rw [val_main_v29_apply, val_main_v28_apply]

/-- which, not negative, the wrap-around of negative indices leaves alone, -/
theorem v4_word (hnb : NbInRange x2) (k : S32x8192x1.Idx) :
    val_main_call1_v4 (F := Ideal) x2 k = x2 (idx_main_v28 (idx_main_v29 k)) := by
  show Scalar.select (IntOp.cmpi .slt (val_main_v29 (F := Ideal) x2 k) 0#32) (IntOp.addi (val_main_v29 (F := Ideal) x2 k) 128#32)
      (val_main_v29 (F := Ideal) x2 k) = _
  rw [v29_word, cmpi_slt_zero _ (hnb _).1, select_zero]

/-- and which passes the in-bounds test. -/
theorem v10_one (hnb : NbInRange x2) (k : S32x8192x1.Idx) : val_main_call1_v10 (F := Ideal) x2 k = 1#1 := by
  show IntOp.andi (IntOp.cmpi .sge (val_main_call1_v4 (F := Ideal) x2 k) 0#32) (IntOp.cmpi .sle (val_main_call1_v4 (F := Ideal) x2 k) 127#32) = 1#1
  rw [v4_word x2 hnb, cmpi_sge_zero _ (hnb _).1, cmpi_sle_127 _ (hnb _).2]
  rfl

/-- So the in-bounds mask is set everywhere. -/
theorem v11_one (hnb : NbInRange x2) (j : S32x8192.Idx) : val_main_call1_v11 (F := Ideal) x2 j = 1#1 := by
  unfold val_main_call1_v11
  rw [Host.reduce_eq_fold_single IntOp.andi _ _ reducesTo_S32x8192x1_S32x8192_d2
    (by decide : S32x8192x1.Reduces [2] S32x8192) h_S_ j]
  show (Finset.univ : Finset (Fin 1)).fold IntOp.andi 1#1 _ = 1#1
  rw [show (Finset.univ : Finset (Fin 1)) = {0} from rfl]
  refine Finset.fold_singleton.trans ?_
  show IntOp.andi (val_main_call1_v10 (F := Ideal) x2 _) 1#1 = 1#1
  rw [v10_one x2 hnb]
  rfl

/-! The batched gather along the atom axis, one operand axis at a time. -/

/-- On the molecule axis the gather reads the result's molecule. -/
theorem gather_axis0 (idx : IVec S32x8192x1 32) (b : Fin 32) (q : Fin 8192) (f : Fin 128) :
    (gather_S32x128x128_S32x8192x1_S32x8192x128_2_1_0_0_1_2_11128.operandIdx (ix3 b q f) idx (0 : Fin 3)).val = b.val := by
  have hb : (0 : Fin S32x128x128.rank) ∈ gather_S32x128x128_S32x8192x1_S32x8192x128_2_1_0_0_1_2_11128.operandBatchingDims :=
    List.mem_singleton.mpr rfl
  show gather_S32x128x128_S32x8192x1_S32x8192x128_2_1_0_0_1_2_11128.start (ix3 b q f) idx (0 : Fin 3)
      + gather_S32x128x128_S32x8192x1_S32x8192x128_2_1_0_0_1_2_11128.batchCoord (ix3 b q f) (0 : Fin 3)
      + gather_S32x128x128_S32x8192x1_S32x8192x128_2_1_0_0_1_2_11128.offCoord (ix3 b q f) (0 : Fin 3) = b.val
  rw [GatherDims.start_batching _ _ _ _ hb,
    GatherDims.offCoord_eq_zero _ _ _ (fun h => ((GatherDims.mem_sKept _ _).mp h).2 hb)]
  have hbc : gather_S32x128x128_S32x8192x1_S32x8192x128_2_1_0_0_1_2_11128.batchCoord (ix3 b q f) (0 : Fin 3) = b.val := by
    unfold GatherDims.batchCoord; rw [dif_pos hb]; rfl
  rw [hbc]
  omega

/-- On the atom axis it reads the start index, read signed and clamped into 0 … 127. -/
theorem gather_axis1 (idx : IVec S32x8192x1 32) (b : Fin 32) (q : Fin 8192) (f : Fin 128) :
    (gather_S32x128x128_S32x8192x1_S32x8192x128_2_1_0_0_1_2_11128.operandIdx (ix3 b q f) idx (1 : Fin 3)).val
      = min (idx (ix3 b q (0 : Fin 1))).toInt.toNat 127 := by
  have hc : (1 : Fin S32x128x128.rank) ∈ gather_S32x128x128_S32x8192x1_S32x8192x128_2_1_0_0_1_2_11128.collapsedSliceDims :=
    List.mem_singleton.mpr rfl
  have hm : (1 : Fin S32x128x128.rank) ∈ gather_S32x128x128_S32x8192x1_S32x8192x128_2_1_0_0_1_2_11128.startIndexMap :=
    List.mem_singleton.mpr rfl
  have hnb : (1 : Fin S32x128x128.rank) ∉ gather_S32x128x128_S32x8192x1_S32x8192x128_2_1_0_0_1_2_11128.operandBatchingDims :=
    fun h => absurd (List.mem_singleton.mp h) (by decide)
  show gather_S32x128x128_S32x8192x1_S32x8192x128_2_1_0_0_1_2_11128.start (ix3 b q f) idx (1 : Fin 3)
      + gather_S32x128x128_S32x8192x1_S32x8192x128_2_1_0_0_1_2_11128.batchCoord (ix3 b q f) (1 : Fin 3)
      + gather_S32x128x128_S32x8192x1_S32x8192x128_2_1_0_0_1_2_11128.offCoord (ix3 b q f) (1 : Fin 3) = _
  rw [GatherDims.batchCoord_eq_zero _ _ _ hnb,
    GatherDims.offCoord_eq_zero _ _ _ (fun h => ((GatherDims.mem_sKept _ _).mp h).1 hc)]
  unfold GatherDims.start
  rw [dif_pos hm]
  have hsi : gather_S32x128x128_S32x8192x1_S32x8192x128_2_1_0_0_1_2_11128.siIdx (ix3 b q f)
      ⟨List.idxOf (1 : Fin S32x128x128.rank) gather_S32x128x128_S32x8192x1_S32x8192x128_2_1_0_0_1_2_11128.startIndexMap,
        List.idxOf_lt_length_iff.2 hm⟩ = ix3 b q (0 : Fin 1) := by
    funext d; refine Fin.ext ?_
    match d with
    | ⟨0, _⟩ => rfl
    | ⟨1, _⟩ => rfl
    | ⟨2, _⟩ => rfl
  rw [hsi]
  rfl

/-- On the filter axis it reads the result's filter. -/
theorem gather_axis2 (idx : IVec S32x8192x1 32) (b : Fin 32) (q : Fin 8192) (f : Fin 128) :
    (gather_S32x128x128_S32x8192x1_S32x8192x128_2_1_0_0_1_2_11128.operandIdx (ix3 b q f) idx (2 : Fin 3)).val = f.val := by
  have hnb : (2 : Fin S32x128x128.rank) ∉ gather_S32x128x128_S32x8192x1_S32x8192x128_2_1_0_0_1_2_11128.operandBatchingDims :=
    fun h => absurd (List.mem_singleton.mp h) (by decide)
  have hnc : (2 : Fin S32x128x128.rank) ∉ gather_S32x128x128_S32x8192x1_S32x8192x128_2_1_0_0_1_2_11128.collapsedSliceDims :=
    fun h => absurd (List.mem_singleton.mp h) (by decide)
  have hnm : (2 : Fin S32x128x128.rank) ∉ gather_S32x128x128_S32x8192x1_S32x8192x128_2_1_0_0_1_2_11128.startIndexMap :=
    fun h => absurd (List.mem_singleton.mp h) (by decide)
  have hk : (2 : Fin S32x128x128.rank) ∈ gather_S32x128x128_S32x8192x1_S32x8192x128_2_1_0_0_1_2_11128.sKept :=
    (GatherDims.mem_sKept _ _).mpr ⟨hnc, hnb⟩
  show gather_S32x128x128_S32x8192x1_S32x8192x128_2_1_0_0_1_2_11128.start (ix3 b q f) idx (2 : Fin 3)
      + gather_S32x128x128_S32x8192x1_S32x8192x128_2_1_0_0_1_2_11128.batchCoord (ix3 b q f) (2 : Fin 3)
      + gather_S32x128x128_S32x8192x1_S32x8192x128_2_1_0_0_1_2_11128.offCoord (ix3 b q f) (2 : Fin 3) = f.val
  rw [GatherDims.batchCoord_eq_zero _ _ _ hnb]
  have hs : gather_S32x128x128_S32x8192x1_S32x8192x128_2_1_0_0_1_2_11128.start (ix3 b q f) idx (2 : Fin 3) = 0 := by
    unfold GatherDims.start; rw [dif_neg hnm]
  have ho : gather_S32x128x128_S32x8192x1_S32x8192x128_2_1_0_0_1_2_11128.offCoord (ix3 b q f) (2 : Fin 3) = f.val := by
    unfold GatherDims.offCoord; rw [dif_pos hk]; rfl
  rw [hs, ho]
  omega

/-- The batched gather along the atom axis at (b, q, f): the operand at (b, the start index clamped into 0 … 127, f). -/
theorem gather_apply (y : FVec Ideal S32x128x128 .f32) (idx : IVec S32x8192x1 32) (b : Fin 32) (q : Fin 8192) (f : Fin 128) :
    Host.gather gather_S32x128x128_S32x8192x1_S32x8192x128_2_1_0_0_1_2_11128 y idx (ix3 b q f)
      = y (ix3 b (nbrIdx (idx (ix3 b q (0 : Fin 1)))) f) := by
  unfold Host.gather
  refine congrArg y (funext fun a => Fin.ext ?_)
  match a with
  | ⟨0, _⟩ => exact gather_axis0 idx b q f
  | ⟨1, _⟩ => exact gather_axis1 idx b q f
  | ⟨2, _⟩ => exact gather_axis2 idx b q f

/-- THE GATHERED ROWS at (b, a, n, f): the dense layer of molecule b at the neighbour's atom, column f. -/
theorem v31_apply (hnb : NbInRange x2) (b : Fin 32) (a : Fin 128) (n : Fin 64) (f : Fin 128) :
    val_main_v31 (F := Ideal) x0 x2 x5 (ix4 b a n f) = ∑ i : Fin 128, x0 (ix3 b (nbrIdx (x2 (ix3 b a n))) i) * x5 (ix2 i f) := by
  have ha := a.isLt; have hn := n.isLt; have hb := b.isLt; have hf := f.isLt
  have e31 : idx_main_v31 (ix4 b a n f) = ix3 b (⟨a.val * 64 + n.val, by omega⟩ : Fin 8192) f := funext fun d => Fin.ext (by
    match d with
    | ⟨0, _⟩ => show (((b.val * 128 + a.val) * 64 + n.val) * 128 + f.val) / 1048576 = b.val; omega
    | ⟨1, _⟩ => show (((b.val * 128 + a.val) * 64 + n.val) * 128 + f.val) / 128 % 8192 = a.val * 64 + n.val; omega
    | ⟨2, _⟩ => show (((b.val * 128 + a.val) * 64 + n.val) * 128 + f.val) % 128 = f.val; omega)
  have ew : idx_main_v28 (idx_main_v29 (ix3 b (⟨a.val * 64 + n.val, by omega⟩ : Fin 8192) (0 : Fin 1))) = ix3 b a n :=
    funext fun d => Fin.ext (by
      match d with
      | ⟨0, _⟩ => show (b.val * 8192 + (a.val * 64 + n.val)) / 8192 = b.val; omega
      | ⟨1, _⟩ => show (b.val * 8192 + (a.val * 64 + n.val)) / 64 % 128 = a.val; omega
      | ⟨2, _⟩ => show (b.val * 8192 + (a.val * 64 + n.val)) % 64 = n.val; omega)
  rw [val_main_v31_apply, e31, val_main_v30_apply, val_main_call1_v13_apply, v11_one x2 hnb, select_one]
  unfold val_main_call1_v12
  rw [gather_apply, v4_word x2 hnb, ew]
  exact v27_apply x0 x5 b _ f

/-! ## The sum over the neighbours, the output layer, the activation -/

/-- The masked, weighted, gathered rows summed over the neighbours, at (b, a, f). -/
theorem v36_apply (hnb : NbInRange x2) (b : Fin 32) (a f : Fin 128) :
    val_main_v36 (F := Ideal) x0 x1 x2 x3 x4 x5 x6 x7 x8 x9 (ix3 b a f)
      = ∑ n : Fin 64, ((∑ i : Fin 128, x0 (ix3 b (nbrIdx (x2 (ix3 b a n))) i) * x5 (ix2 i f))
          * (filt (fun g => x4 (ix4 b a n g)) (fun g h => x6 (ix2 g h)) (fun h => x7 (ix1 h)) (fun h f => x8 (ix2 h f)) (fun f => x9 (ix1 f)) f
              * cut (x1 (ix3 b a n)))) * x3 (ix3 b a n) := by
  rw [val_main_v36_apply]
  have hc : (val_main_cst_5 (F := Ideal)) (Shape.Idx.first h_S_) = 0 := Ideal.ofBits_zero_f32
  rw [hc, zero_add]
  refine Finset.sum_congr rfl fun n _ => ?_
  have e : idx_main_v36 (ix3 b a f) n = ix4 b a n f := funext fun d => Fin.ext (by
    match d with | ⟨0, _⟩ => rfl | ⟨1, _⟩ => rfl | ⟨2, _⟩ => rfl | ⟨3, _⟩ => rfl)
  have e2 : idx_main_v33 (idx_main_v34 (ix4 b a n f)) = ix3 b a n := funext fun d => Fin.ext (by
    match d with | ⟨0, _⟩ => rfl | ⟨1, _⟩ => rfl | ⟨2, _⟩ => rfl)
  rw [e, val_main_v35_apply, val_main_v32_apply, v31_apply x0 x2 x5 hnb, v26_apply, val_main_v34_apply, val_main_v33_apply, e2]
  rfl

/-- The reference's second softplus minus ln 2, lane by lane. -/
theorem v43_ssp (i : S32x128x128.Idx) :
    val_main_v43 (F := Ideal) x0 x1 x2 x3 x4 x5 x6 x7 x8 x9 x10 x11 i
      = ssp (val_main_v40 (F := Ideal) x0 x1 x2 x3 x4 x5 x6 x7 x8 x9 x10 x11 i) := by
  show Scalar.select
      (Ideal.cmp .une (val_main_v40 (F := Ideal) x0 x1 x2 x3 x4 x5 x6 x7 x8 x9 x10 x11 i - Ideal.ofBits .f32 0x00000000#32)
        (val_main_v40 (F := Ideal) x0 x1 x2 x3 x4 x5 x6 x7 x8 x9 x10 x11 i - Ideal.ofBits .f32 0x00000000#32))
      (val_main_v40 (F := Ideal) x0 x1 x2 x3 x4 x5 x6 x7 x8 x9 x10 x11 i + Ideal.ofBits .f32 0x00000000#32)
      (max (val_main_v40 (F := Ideal) x0 x1 x2 x3 x4 x5 x6 x7 x8 x9 x10 x11 i) (Ideal.ofBits .f32 0x00000000#32)
        + Ideal.log1p (Ideal.exp (-(max (val_main_v40 (F := Ideal) x0 x1 x2 x3 x4 x5 x6 x7 x8 x9 x10 x11 i - Ideal.ofBits .f32 0x00000000#32)
            (-(val_main_v40 (F := Ideal) x0 x1 x2 x3 x4 x5 x6 x7 x8 x9 x10 x11 i - Ideal.ofBits .f32 0x00000000#32))))))
      - Ideal.ofBits .f32 0x3F317218#32 = _
  rw [cmp_une_self, select_zero, Ideal.ofBits_zero_f32]
  rfl

/-- THE REFERENCE AT AN ENTRY is the convolution of its arguments, when the neighbour words are atom indices. -/
theorem ref_entry (hnb : NbInRange x2) (b : Fin 32) (a o : Fin 128) :
    val_main_v43 (F := Ideal) x0 x1 x2 x3 x4 x5 x6 x7 x8 x9 x10 x11 (ix3 b a o)
      = cfconv (B := 32) x0 x1 x2 x3 x4 x5 x6 x7 x8 x9 x10 x11 b a o := by
  rw [v43_ssp]
  unfold cfconv outRow
  refine congrArg ssp ?_
  show val_main_v37 (F := Ideal) x0 x1 x2 x3 x4 x5 x6 x7 x8 x9 x10 (ix3 b a o) + val_main_v39 (F := Ideal) x11 (ix3 b a o) = _
  rw [val_main_v37_apply, val_main_v39_apply, val_main_v38_apply]
  have e1 : ∀ f : Fin 128, lidx_main_v37 (ix3 b a o) f = ix3 b a f := fun f => funext fun d => Fin.ext (by
    match d with | ⟨0, _⟩ => rfl | ⟨1, _⟩ => rfl | ⟨2, _⟩ => rfl)
  have e2 : ∀ f : Fin 128, ridx_main_v37 (ix3 b a o) f = ix2 f o := fun f => funext fun d => Fin.ext (by
    match d with | ⟨0, _⟩ => rfl | ⟨1, _⟩ => rfl)
  have e3 : idx_main_v38 (idx_main_v39 (ix3 b a o)) = ix1 o := funext fun d => Fin.ext (by
    match d with | ⟨0, _⟩ => rfl)
  simp only [e1, e2, e3, v36_apply x0 x1 x2 x3 x4 x5 x6 x7 x8 x9 hnb]

/-- THE REFERENCE'S RESULT is the convolution array. -/
theorem ref_eq (hnb : NbInRange x2) :
    val_main_v43 (F := Ideal) x0 x1 x2 x3 x4 x5 x6 x7 x8 x9 x10 x11 = cfconvArr x0 x1 x2 x3 x4 x5 x6 x7 x8 x9 x10 x11 := by
  funext i
  obtain ⟨b, a, o, rfl⟩ : ∃ (b : Fin 32) (a o : Fin 128), i = ix3 b a o := ⟨i 0, i 1, i 2, eq_ix3 i⟩
  exact ref_entry x0 x1 x2 x3 x4 x5 x6 x7 x8 x9 x10 x11 hnb b a o

end Cert.ReferenceIdeal.RefValue

end
-- ==== Proof.PreRange.lean ====
/-
  The precondition read back: every neighbour word is an atom index, 0 ≤ word < 128 as a signed integer.
-/
import proofs.«425382_j84945863180598_3_alg».proof.Pre_finite_inputs
import Idealize.ShloMosaic.Lib.ReduceAll
import Idealize.ShloMosaic.Lib.ValueIdx
import Idealize.ShloMosaic.Lib.StableHlo.Predicate

set_option maxRecDepth 16384

noncomputable section

namespace Cert.PreRange

open Idealize.ShloMosaic Cert.Pre_finite_inputs Cert.Pre_finite_inputs.Facts

variable [Cert.Pre_finite_inputs.Facts]

/-- The rank-0 shape has one index. -/
instance : Subsingleton S_.Idx := ⟨fun a b => funext fun d => d.elim0⟩

/-- A word that passes the signed test "≥ 0" is not negative. -/
theorem toInt_nonneg_of_sge (w : BitVec 32) (h : IntOp.cmpi .sge w 0#32 = 1#1) : 0 ≤ w.toInt := by
  have h0 : (0#32 : BitVec 32).toInt = 0 := by decide
  have h' : BitVec.ofBool (decide ((0#32 : BitVec 32).toInt ≤ w.toInt)) = 1#1 := h
  rw [StableHlo.Predicate.ofBool_eq_one_iff, decide_eq_true_eq, h0] at h'
  exact h'

/-- A word that passes the signed test "< 128" is below 128. -/
theorem toInt_lt_of_slt (w : BitVec 32) (h : IntOp.cmpi .slt w 128#32 = 1#1) : w.toInt < 128 := by
  have h0 : (128#32 : BitVec 32).toInt = 128 := by decide
  have h' : BitVec.ofBool (decide (w.toInt < (128#32 : BitVec 32).toInt)) = 1#1 := h
  rw [StableHlo.Predicate.ofBool_eq_one_iff, decide_eq_true_eq, h0] at h'
  exact h'

/-- THE PRECONDITION'S LAST CONJUNCT, DECODED: where the precondition holds, every word of the neighbours array is in
    0 … 127 (the conjunction's other members, the finiteness of the float inputs, are not used). -/
theorem nb_range {F : FTy → Type} [FloatOps F] (a0 : FVec F S32x128x128 .f32) (a1 : FVec F S32x128x64 .f32) (a2 : IVec S32x128x64 32)
    (a3 : FVec F S32x128x64 .f32) (a4 : FVec F S32x128x64x64 .f32) (a5 : FVec F S128x128 .f32) (a6 : FVec F S64x128 .f32)
    (a7 : FVec F S128 .f32) (a8 : FVec F S128x128 .f32) (a9 : FVec F S128 .f32) (a10 : FVec F S128x128 .f32) (a11 : FVec F S128 .f32)
    (h : Cert.Pre_finite_inputs.fn (F := F) a0 a1 a2 a3 a4 a5 a6 a7 a8 a9 a10 a11 = fun _ => 1#1) (i : S32x128x64.Idx) :
    0 ≤ (a2 i).toInt ∧ (a2 i).toInt < 128 := by
  have e := congrFun h ValueIdx.ix0
  unfold Cert.Pre_finite_inputs.fn Cert.Pre_finite_inputs.fn_part1 Cert.Pre_finite_inputs.fn_part2 Cert.Pre_finite_inputs.fn_part3 at e
  have e' : IntOp.andi _ _ = 1#1 := e
  obtain ⟨-, h59⟩ := IntOp.andi_eq_one.1 e'
  have hi := Host.reduce_andi_all _ _ _ _ _ h59 i
  have hi' : IntOp.andi (IntOp.cmpi .sge (a2 i) 0#32) (IntOp.cmpi .slt (a2 i) 128#32) = 1#1 := hi
  obtain ⟨hge, hlt⟩ := IntOp.andi_eq_one.1 hi'
  exact ⟨toInt_nonneg_of_sge _ hge, toInt_lt_of_slt _ hlt⟩

end Cert.PreRange

end
-- ==== Proof.lean ====
/-
  Continuous-filter convolution (CFConv message passing), kernel against reference, over the extended reals.

  Both programs compute, for molecule b, atom a and output unit o,

    out (b, a, o) = ssp ( Σ_f ( Σ_n  y (b, nb (b,a,n), f) · filt (b,a,n,f) · cut (r (b,a,n)) · mask (b,a,n) ) · W_out (f, o) + b_out o ),

  y = x · W_in the dense layer, filt the two-layer filter network on the expanded distances, cut the cosine cutoff,
  ssp the shifted softplus (Proof/Spec.lean).  They differ in four places, none of which changes a value:

  · the reference gathers row nb of y with a batched gather; the kernel multiplies y, two molecules stacked, by the
    indicator matrix of "nb + 128 · (molecule within the pair) = k".  For a neighbour word in 0 … 127 the indicator
    row has its one 1 at the neighbour's row of the right molecule (nothing wraps below 256), and a sum against it
    is that row (Proof/KChunk.lean); the reference's wrap-around of negative indices, its in-bounds mask and the
    gather's clamp are then all the identity (Proof/RefValue.lean).  Outside 0 … 127 the two do differ, which is why
    the precondition carries the index range, read back in Proof/PreRange.lean;
  · the reference scales a distance by the f32 nearest π and divides by 5, the kernel multiplies by one literal:
    13176795 = 5 · 2635359, so that literal is exactly a fifth of the other (Spec.scale_eq), at the infinities too;
  · the kernel multiplies the mask into the cutoff before the filter, the reference multiplies it in last:
    multiplication of extended reals is associative (Spec.mul_regroup);
  · the kernel works on two molecules and 32 atoms at a time, flattening (molecule, atom, neighbour) into matrix
    rows; each of its four stores is the same function of its own rows (Proof/KBlock.lean), the blocks tile the
    output, and sums over a contraction or a reduced axis are sums over the same index set on both sides.

  The frames are the generated ones, and the reference's run is the generated run (read through the copy
  Proof/RefRun.lean).  The idealization rewrote nothing, so the preservation claim is the trivial one.
-/
import proofs.«425382_j84945863180598_3_alg».proof.Defs
import proofs.«425382_j84945863180598_3_alg».proof.Proof.Gen.Kernel
import proofs.«425382_j84945863180598_3_alg».proof.Proof.Gen.Kernel.Frame
import proofs.«425382_j84945863180598_3_alg».proof.Proof.Gen.KernelIdeal
import proofs.«425382_j84945863180598_3_alg».proof.Proof.Gen.KernelIdeal.Frame
import proofs.«425382_j84945863180598_3_alg».proof.Proof.Gen.ReferenceIdeal
import proofs.«425382_j84945863180598_3_alg».proof.Proof.Gen.Pre_finite_inputs
import proofs.«425382_j84945863180598_3_alg».proof.Proof.KBlock
import proofs.«425382_j84945863180598_3_alg».proof.Proof.RefValue
import proofs.«425382_j84945863180598_3_alg».proof.Proof.PreRange
import Idealize.ShloMosaic.Adequacy
import Idealize.ShloMosaic.Init

noncomputable section

namespace Cert.Proof

open Idealize.ShloMosaic Idealize.SL.Sem

/-- The kernel as printed runs, faults nowhere and leaves its arguments alone. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- From memories that agree on the arguments, under the precondition, both programs end with the convolution of the
    arguments: the kernel's blocks tile it, the reference's stages compose to it. -/
theorem algebraic : Cert.algebraic_KernelIdeal_ReferenceIdeal := by
  intro m ρ m' ρ' hpre hagree
  have hnb : ∀ c, Cert.KernelIdeal.Block.NbInRange m c := fun c i =>
    Cert.PreRange.nb_range _ _ _ _ _ _ _ _ _ _ _ _ (hpre c) i
  refine ⟨fun c => Cert.KernelIdeal.Block.result m c, Cert.KernelIdeal.Block.run m ρ hnb, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11⟩ := hagree c
  rw [Cert.ReferenceIdeal.ReadP.val_main_v43_eq, h0, h1, h2, h3, h4, h5, h6, h7, h8, h9, h10, h11]
  exact Cert.ReferenceIdeal.RefValue.ref_eq _ _ _ _ _ _ _ _ _ _ _ _ (hnb c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
